-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x128x128x128 : Shape := ⟨5, ![2, 8, 128, 128, 128]⟩
abbrev S_ : Shape := ⟨0, ![]⟩

class Facts : Prop where
  bcast_S_S2x8x128x128x128 : S_.BroadcastsInDim S2x8x128x128x128 (![] : Fin 0 → Fin S2x8x128x128x128.rank)
  reducesTo_S2x8x128x128x128_S_d0_1_2_3_4 : S2x8x128x128x128.ReducesTo [0, 1, 2, 3, 4] S_
  h_S_ : 0 < S_.numel

variable [Facts]

def fn {F : FTy → Type} [FloatOps F] (main_arg0 : FVec F S2x8x128x128x128 .f32) (main_arg1 : FVec F S2x8x128x128x128 .f32) (main_arg2 : FVec F S2x8x128x128x128 .f32) : IVec S_ 1 :=
  let main_v0 : FVec F S2x8x128x128x128 .f32 := Host.absf main_arg0
  let main_cst : FVec F S_ .f32 := constant S_ .f32 0x7F800000#32
  let main_v1 : FVec F S2x8x128x128x128 .f32 := broadcastInDim S2x8x128x128x128 ![] bcast_S_S2x8x128x128x128 main_cst
  let main_v2 : IVec S2x8x128x128x128 1 := cmpf .olt main_v0 main_v1
  let main_c : IVec S_ 1 := constantI S_ 1 1#1
  let main_v3 : IVec S_ 1 := (fun x v => Host.reduce IntOp.andi x v reducesTo_S2x8x128x128x128_S_d0_1_2_3_4 h_S_) main_v2 main_c
  let main_v4 : FVec F S2x8x128x128x128 .f32 := Host.absf main_arg1
  let main_cst_0 : FVec F S_ .f32 := constant S_ .f32 0x7F800000#32
  let main_v5 : FVec F S2x8x128x128x128 .f32 := broadcastInDim S2x8x128x128x128 ![] bcast_S_S2x8x128x128x128 main_cst_0
  let main_v6 : IVec S2x8x128x128x128 1 := cmpf .olt main_v4 main_v5
  let main_c_1 : IVec S_ 1 := constantI S_ 1 1#1
  let main_v7 : IVec S_ 1 := (fun x v => Host.reduce IntOp.andi x v reducesTo_S2x8x128x128x128_S_d0_1_2_3_4 h_S_) main_v6 main_c_1
  let main_v8 : IVec S_ 1 := andi main_v3 main_v7
  let main_v9 : FVec F S2x8x128x128x128 .f32 := Host.absf main_arg2
  let main_cst_2 : FVec F S_ .f32 := constant S_ .f32 0x7F800000#32
  let main_v10 : FVec F S2x8x128x128x128 .f32 := broadcastInDim S2x8x128x128x128 ![] bcast_S_S2x8x128x128x128 main_cst_2
  let main_v11 : IVec S2x8x128x128x128 1 := cmpf .olt main_v9 main_v10
  let main_c_3 : IVec S_ 1 := constantI S_ 1 1#1
  let main_v12 : IVec S_ 1 := (fun x v => Host.reduce IntOp.andi x v reducesTo_S2x8x128x128x128_S_d0_1_2_3_4 h_S_) main_v11 main_c_3
  let main_v13 : IVec S_ 1 := andi main_v8 main_v12
  main_v13
-- ==== Kernel.lean ====
abbrev S2x8x128x128x128 : Shape := ⟨5, ![2, 8, 128, 128, 128]⟩
abbrev S2x8x4x32x4x32x4x32 : Shape := ⟨8, ![2, 8, 4, 32, 4, 32, 4, 32]⟩
abbrev S2x8x4x4x4x32x32x32 : Shape := ⟨8, ![2, 8, 4, 4, 4, 32, 32, 32]⟩
abbrev S2x512x32768 : Shape := ⟨3, ![2, 512, 32768]⟩
abbrev S2x512x1 : Shape := ⟨3, ![2, 512, 1]⟩
abbrev S1x512x2048 : Shape := ⟨3, ![1, 512, 2048]⟩
abbrev S1x512x1 : Shape := ⟨3, ![1, 512, 1]⟩
abbrev S512x512 : Shape := ⟨2, ![512, 512]⟩
abbrev S512x1 : Shape := ⟨2, ![512, 1]⟩
abbrev S512x2048 : Shape := ⟨2, ![512, 2048]⟩
abbrev S2048x512 : Shape := ⟨2, ![2048, 512]⟩
abbrev S512 : Shape := ⟨1, ![512]⟩
abbrev S1x512 : Shape := ⟨2, ![1, 512]⟩

abbrev nBuf : Space → Nat
  | .hbm => 17
  | .vmem => 15
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S2x8x128x128x128, .f32⟩
  | .hbm, ⟨3, _⟩ => ⟨S2x8x4x32x4x32x4x32, .f32⟩
  | .hbm, ⟨4, _⟩ => ⟨S2x8x4x4x4x32x32x32, .f32⟩
  | .hbm, ⟨5, _⟩ => ⟨S2x8x4x32x4x32x4x32, .f32⟩
  | .hbm, ⟨6, _⟩ => ⟨S2x8x4x4x4x32x32x32, .f32⟩
  | .hbm, ⟨7, _⟩ => ⟨S2x8x4x32x4x32x4x32, .f32⟩
  | .hbm, ⟨8, _⟩ => ⟨S2x8x4x4x4x32x32x32, .f32⟩
  | .hbm, ⟨9, _⟩ => ⟨S2x512x32768, .f32⟩
  | .hbm, ⟨10, _⟩ => ⟨S2x512x32768, .f32⟩
  | .hbm, ⟨11, _⟩ => ⟨S2x512x32768, .f32⟩
  | .hbm, ⟨12, _⟩ => ⟨S2x512x1, .f32⟩
  | .hbm, ⟨13, _⟩ => ⟨S2x512x32768, .f32⟩
  | .hbm, ⟨14, _⟩ => ⟨S2x8x4x4x4x32x32x32, .f32⟩
  | .hbm, ⟨15, _⟩ => ⟨S2x8x4x32x4x32x4x32, .f32⟩
  | .hbm, ⟨16, _⟩ => ⟨S2x8x128x128x128, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x1, .f32⟩
  | .local _ .vmem, ⟨5, _⟩ => ⟨S1x512x1, .f32⟩
  | .local _ .vmem, ⟨6, _⟩ => ⟨S512x512, .f32⟩
  | .local _ .vmem, ⟨7, _⟩ => ⟨S512x1, .f32⟩
  | .local _ .vmem, ⟨8, _⟩ => ⟨S512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .f32⟩
  | _, _ => ⟨S2x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_22 : BitVec 32 := 0#32
  let v38 : BitVec 1 := Scalar.cmpi .ne v37 c0_i32_22
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x8x128x128x128_S2x8x4x32x4x32x4x32 : S2x8x128x128x128.ShapeCasts S2x8x4x32x4x32x4x32
  transposes_S2x8x4x32x4x32x4x32_S2x8x4x4x4x32x32x32_0_1_2_4_6_3_5_7 : S2x8x4x32x4x32x4x32.Transposes [0, 1, 2, 4, 6, 3, 5, 7] S2x8x4x4x4x32x32x32
  shapeCasts_S2x8x4x4x4x32x32x32_S2x512x32768 : S2x8x4x4x4x32x32x32.ShapeCasts S2x512x32768
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  transposes_S512x2048_p1_0_S2048x512 : S512x2048.Transposes [1, 0] S2048x512
  reduces_S512x2048_S512 : S512x2048.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  broadcasts_S512x1_S512x2048 : S512x1.Broadcasts S512x2048
  shapeCasts_S512x2048_S1x512x2048 : S512x2048.ShapeCasts S1x512x2048
  shapeCasts_S2x512x32768_S2x8x4x4x4x32x32x32 : S2x512x32768.ShapeCasts S2x8x4x4x4x32x32x32
  transposes_S2x8x4x4x4x32x32x32_S2x8x4x32x4x32x4x32_0_1_2_5_3_6_4_7 : S2x8x4x4x4x32x32x32.Transposes [0, 1, 2, 5, 3, 6, 4, 7] S2x8x4x32x4x32x4x32
  shapeCasts_S2x8x4x32x4x32x4x32_S2x8x128x128x128 : S2x8x4x32x4x32x4x32.ShapeCasts S2x8x128x128x128
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S2x512x32768.size a
  hwx0_0 : ∀ i : grid0.Coords, EltTy.bits .f32 = 32 ∨ (Rect.block (s := S2x512x32768) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S2x512x32768.size a
  hwx0_1 : ∀ i : grid0.Coords, EltTy.bits .f32 = 32 ∨ (Rect.block (s := S2x512x32768) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S2x512x1.size a
  hwx0_2 : ∀ i : grid0.Coords, EltTy.bits .f32 = 32 ∨ (Rect.block (s := S2x512x1) S1x512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1.size a ≤ S2x512x1.size a
  hwx1_0 : ∀ i : grid1.Coords, EltTy.bits .f32 = 32 ∨ (Rect.block (s := S2x512x1) S1x512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S2x512x32768.size a
  hwx1_1 : ∀ i : grid1.Coords, EltTy.bits .f32 = 32 ∨ (Rect.block (s := S2x512x32768) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S2x512x32768.size a
  hwx1_2 : ∀ i : grid1.Coords, EltTy.bits .f32 = 32 ∨ (Rect.block (s := S2x512x32768) S1x512x2048.size (cc1_transform_2 i) (hinb1_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v6) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1x512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x8x128x128x128 : Shape := ⟨5, ![2, 8, 128, 128, 128]⟩
abbrev S2x8x4x32x4x32x4x32 : Shape := ⟨8, ![2, 8, 4, 32, 4, 32, 4, 32]⟩
abbrev S2x8x4x4x4x32x32x32 : Shape := ⟨8, ![2, 8, 4, 4, 4, 32, 32, 32]⟩
abbrev S2x512x32768 : Shape := ⟨3, ![2, 512, 32768]⟩
abbrev S_ : Shape := ⟨0, ![]⟩
abbrev S2x512x512 : Shape := ⟨3, ![2, 512, 512]⟩
abbrev S2x512 : Shape := ⟨2, ![2, 512]⟩
abbrev S2x512x1 : Shape := ⟨3, ![2, 512, 1]⟩
abbrev S2x1x512 : Shape := ⟨3, ![2, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S2x8x128x128x128, .f32⟩
  | .hbm, ⟨3, _⟩ => ⟨S2x8x4x32x4x32x4x32, .f32⟩
  | .hbm, ⟨4, _⟩ => ⟨S2x8x4x4x4x32x32x32, .f32⟩
  | .hbm, ⟨5, _⟩ => ⟨S2x8x4x32x4x32x4x32, .f32⟩
  | .hbm, ⟨6, _⟩ => ⟨S2x8x4x4x4x32x32x32, .f32⟩
  | .hbm, ⟨7, _⟩ => ⟨S2x8x4x32x4x32x4x32, .f32⟩
  | .hbm, ⟨8, _⟩ => ⟨S2x8x4x4x4x32x32x32, .f32⟩
  | .hbm, ⟨9, _⟩ => ⟨S2x512x32768, .f32⟩
  | .hbm, ⟨10, _⟩ => ⟨S_, .f32⟩
  | .hbm, ⟨11, _⟩ => ⟨S2x512x32768, .f32⟩
  | .hbm, ⟨12, _⟩ => ⟨S2x512x32768, .f32⟩
  | .hbm, ⟨13, _⟩ => ⟨S2x512x32768, .f32⟩
  | .hbm, ⟨14, _⟩ => ⟨S_, .f32⟩
  | .hbm, ⟨15, _⟩ => ⟨S2x512x32768, .f32⟩
  | .hbm, ⟨16, _⟩ => ⟨S2x512x32768, .f32⟩
  | .hbm, ⟨17, _⟩ => ⟨S2x512x512, .f32⟩
  | .hbm, ⟨18, _⟩ => ⟨S2x512x32768, .f32⟩
  | .hbm, ⟨19, _⟩ => ⟨S_, .f32⟩
  | .hbm, ⟨20, _⟩ => ⟨S2x512, .f32⟩
  | .hbm, ⟨21, _⟩ => ⟨S2x512x32768, .f32⟩
  | .hbm, ⟨22, _⟩ => ⟨S_, .f32⟩
  | .hbm, ⟨23, _⟩ => ⟨S2x512, .f32⟩
  | .hbm, ⟨24, _⟩ => ⟨S2x512x1, .f32⟩
  | .hbm, ⟨25, _⟩ => ⟨S2x1x512, .f32⟩
  | .hbm, ⟨26, _⟩ => ⟨S2x512x512, .f32⟩
  | .hbm, ⟨27, _⟩ => ⟨S2x512x512, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S_, .f32⟩
  | .hbm, ⟨34, _⟩ => ⟨S2x512x512, .f32⟩
  | .hbm, ⟨35, _⟩ => ⟨S2x512x512, .f32⟩
  | .hbm, ⟨36, _⟩ => ⟨S2x512x512, .f32⟩
  | .hbm, ⟨37, _⟩ => ⟨S2x512x512, .f32⟩
  | .hbm, ⟨38, _⟩ => ⟨S2x512x512, .f32⟩
  | .hbm, ⟨39, _⟩ => ⟨S2x512x512, .f32⟩
  | .hbm, ⟨40, _⟩ => ⟨S_, .f32⟩
  | .hbm, ⟨41, _⟩ => ⟨S2x512, .f32⟩
  | .hbm, ⟨42, _⟩ => ⟨S2x512x32768, .f32⟩
  | .hbm, ⟨43, _⟩ => ⟨S2x512x1, .f32⟩
  | .hbm, ⟨44, _⟩ => ⟨S2x512x32768, .f32⟩
  | .hbm, ⟨45, _⟩ => ⟨S2x512x32768, .f32⟩
  | .hbm, ⟨46, _⟩ => ⟨S2x8x4x4x4x32x32x32, .f32⟩
  | .hbm, ⟨47, _⟩ => ⟨S2x8x4x32x4x32x4x32, .f32⟩
  | .hbm, ⟨48, _⟩ => ⟨S2x8x128x128x128, .f32⟩
  | _, _ => ⟨S2x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  shapeCasts_S2x8x128x128x128_S2x8x4x32x4x32x4x32 : S2x8x128x128x128.ShapeCasts S2x8x4x32x4x32x4x32
  transposes_S2x8x4x32x4x32x4x32_S2x8x4x4x4x32x32x32_0_1_2_4_6_3_5_7 : S2x8x4x32x4x32x4x32.Transposes [0, 1, 2, 4, 6, 3, 5, 7] S2x8x4x4x4x32x32x32
  shapeCasts_S2x8x4x4x4x32x32x32_S2x512x32768 : S2x8x4x4x4x32x32x32.ShapeCasts S2x512x32768
  bcast_S_S2x512x32768 : S_.BroadcastsInDim S2x512x32768 (![] : Fin 0 → Fin S2x512x32768.rank)
  reducesTo_S2x512x32768_S2x512_d2 : S2x512x32768.ReducesTo [2] S2x512
  h_S_ : 0 < S_.numel
  bcast_S2x512_S2x512x1_0_1 : S2x512.BroadcastsInDim S2x512x1 (![0, 1] : Fin 2 → Fin S2x512x1.rank)
  bcast_S2x512_S2x1x512_0_2 : S2x512.BroadcastsInDim S2x1x512 (![0, 2] : Fin 2 → Fin S2x1x512.rank)
  bcast_S2x512x1_S2x512x512_0_1_2 : S2x512x1.BroadcastsInDim S2x512x512 (![0, 1, 2] : Fin 3 → Fin S2x512x512.rank)
  bcast_S2x1x512_S2x512x512_0_1_2 : S2x1x512.BroadcastsInDim S2x512x512 (![0, 1, 2] : Fin 3 → Fin S2x512x512.rank)
  bcast_S_S2x512x512 : S_.BroadcastsInDim S2x512x512 (![] : Fin 0 → Fin S2x512x512.rank)
  reducesTo_S2x512x512_S2x512_d1 : S2x512x512.ReducesTo [1] S2x512
  bcast_S2x512x1_S2x512x32768_0_1_2 : S2x512x1.BroadcastsInDim S2x512x32768 (![0, 1, 2] : Fin 3 → Fin S2x512x32768.rank)
  shapeCasts_S2x512x32768_S2x8x4x4x4x32x32x32 : S2x512x32768.ShapeCasts S2x8x4x4x4x32x32x32
  transposes_S2x8x4x4x4x32x32x32_S2x8x4x32x4x32x4x32_0_1_2_5_3_6_4_7 : S2x8x4x4x4x32x32x32.Transposes [0, 1, 2, 5, 3, 6, 4, 7] S2x8x4x32x4x32x4x32
  shapeCasts_S2x8x4x32x4x32x4x32_S2x8x128x128x128 : S2x8x4x32x4x32x4x32.ShapeCasts S2x8x128x128x128
  dot_S2x512x32768_S2x512x32768_S2x512x512_2_2_1_1_0_0_wf : DotDims.WF S2x512x32768 S2x512x32768 S2x512x512 [2] [2] [1] [1] [0] [0]

variable [Facts₀]

def dot_S2x512x32768_S2x512x32768_S2x512x512_2_2_1_1_0_0 : DotDims S2x512x32768 S2x512x32768 S2x512x512 where
  lhsContracting := [2]
  rhsContracting := [2]
  lhsNonContracting := [1]
  rhsNonContracting := [1]
  lhsBatch := [0]
  rhsBatch := [0]
  wf := dot_S2x512x32768_S2x512x32768_S2x512x512_2_2_1_1_0_0_wf

class Facts : Prop extends Facts₀ where

variable [Facts]
-- ==== Proof.R0Defs.lean ====
/-
  Region 0 (the similarity kernel), its proof data at any float instance and any entry contents.

  The grid is (batch b, tile d) with 16 tiles of 2048 along the contracted axis of length 32768; point t is
  (t / 16, t % 16). Three scratch buffers are carried from tile to tile of one batch entry:
    qk[m, n]  — the sum over the tiles seen so far of  sum_j (k[m, j] * s) * (q[n, j] * s),
    qq[n]     — the sum over those tiles of  sum_j (q[n, j] * s)^2,
    kk[m]     — the same for k.
  They are reset to zero at tile 0 and read at tile 15, where the output block of the batch entry is stored:
    out[m] = sum_n exp (log (qk[m, n] + eps) - log (kk[m] + qq[n] - qk[m, n] + eps)).
  `accAt0` is the triple after each point by recursion on the point; the region invariant holds the three
  buffers at that triple between points.
-/
import proofs.«145453_j21732534517872_1_alg».proof.Proof.Gen.KernelIdeal.Launch
import proofs.«145453_j21732534517872_1_alg».proof.Proof.Gen.KernelIdeal.Skeleton
import proofs.«145453_j21732534517872_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the k window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The carried accumulators -/

/-- The three scratch buffers' contents: (qk, qq, kk). -/
abbrev Acc (F : FTy → Type) [FloatOps F] : Type := Vec F S512x512 .f32 × Vec F S512x1 .f32 × Vec F S512x1 .f32

/-- What tile 0 resets them to. -/
def accZero : Acc F := (k0_pay3 (F := F), k0_pay4 (F := F), k0_pay5 (F := F))

/-- One tile's update from the q block `x0` and the k block `x1`. -/
def accStep (x0 x1 : Vec F S1x512x2048 .f32) (a : Acc F) : Acc F :=
  (k0_pay8 x0 x1 a.1, k0_pay1 a.2.1 (k0_pay10 x0), k0_pay9 x1 a.2.2)

/-- The output block the last tile stores, from the accumulators after that tile's update. -/
def outOf (a : Acc F) : Vec F S1x512x1 .f32 := k0_pay2 a.2.1 a.2.2 a.1 a.1

/-- The accumulators after the body at position `n`: the tile's update of zero at tile 0 of a batch entry, of
    what position `n - 1` left otherwise. -/
def accAt0 (c : Dev nD) : (n : ℕ) → n < cfg0.N → Acc F
  | 0, hn => accStep (iblk0 V c 0 ⟨0, hn⟩) (iblk0 V c 1 ⟨0, hn⟩) accZero
  | n + 1, hn => accStep (iblk0 V c 0 ⟨n + 1, hn⟩) (iblk0 V c 1 ⟨n + 1, hn⟩)
      (if (n + 1) % 16 = 0 then accZero else accAt0 c n (Nat.lt_of_succ_lt hn))

/-- What the update at point `t` starts from. -/
def accPrev0 (c : Dev nD) (t : Fin cfg0.N) : Acc F :=
  if t.val % 16 = 0 then accZero else
    if h : t.val = 0 then accZero else accAt0 V c (t.val - 1) (Nat.lt_of_le_of_lt (Nat.sub_le _ _) t.isLt)

theorem accAt0_eq (c : Dev nD) (t : Fin cfg0.N) :
    accAt0 V c t.val t.isLt = accStep (iblk0 V c 0 t) (iblk0 V c 1 t) (accPrev0 V c t) := by
  obtain ⟨n, hn⟩ := t
  cases n with
  | zero => unfold accPrev0; rw [if_pos (Nat.zero_mod _)]; rfl
  | succ n =>
    unfold accPrev0
    by_cases h : (n + 1) % 16 = 0
    · rw [if_pos h]; show accStep _ _ (if (n + 1) % 16 = 0 then accZero else _) = _; rw [if_pos h]
    · rw [if_neg h, dif_neg (Nat.succ_ne_zero n)]; show accStep _ _ (if (n + 1) % 16 = 0 then accZero else _) = _; rw [if_neg h]; rfl

/-! ## The region invariant -/

abbrev scM0 : Memref sig .tc .vmem S512x512 .f32 := Memref.whole cc0_scratch0
abbrev scM1 : Memref sig .tc .vmem S512x1 .f32 := Memref.whole cc0_scratch1
abbrev scM2 : Memref sig .tc .vmem S512x1 .f32 := Memref.whole cc0_scratch2

/-- The scoped buffers this region never touches (the other region's staging buffers), each at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the three scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ (∃ d, owns (c : Thread nD τ) scM2 fullShare d) ∗ restS0 c) ∗ (∃ r, prngReg c r)) := by
  unfold Pipeline.ΦA restS0; rw [scopedRest0_eq]; simp only [scM0, scM1, scM2, owns_whole]; try rfl

/-- The invariant before position `n`: before the first point the class's (every scratch at anything); afterwards the
    three scratch buffers at what position `n - 1` left. -/
def PhiS0 (c : Dev nD) : (n : ℕ) → n ≤ cfg0.N → sProp 𝕄
  | 0, _ => Pipeline.ΦA spec0 c
  | n + 1, hn => iprop((owns (c : Thread nD τ) scM0 fullShare (accAt0 V c n hn).1 ∗ owns (c : Thread nD τ) scM1 fullShare (accAt0 V c n hn).2.1 ∗ owns (c : Thread nD τ) scM2 fullShare (accAt0 V c n hn).2.2 ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn).1 ∗ owns (c : Thread nD τ) scM1 fullShare (accAt0 V c n hn).2.1 ∗ owns (c : Thread nD τ) scM2 fullShare (accAt0 V c n hn).2.2 ∗ restS0 c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)).1 ∗ owns (c : Thread nD τ) scM1 fullShare (accAt0 V c (n - 1) (by omega)).2.1 ∗ owns (c : Thread nD τ) scM2 fullShare (accAt0 V c (n - 1) (by omega)).2.2 ∗ restS0 c) ∗ (∃ r, prngReg c r)) := by
  cases n with
  | zero => exact absurd rfl hz
  | succ n => rfl

/-! ## The proof data -/

/-- Region 0's proof data on core `c`: the arrays as the region finds them; after the body each input's buffer at its
    block, the output's at `outOf` of the accumulators (consulted only at the tile that stores it); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outOf (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outOf (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := rfl

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨H0, H1, H2, Hr⟩, Hg⟩
  isplitr [Hg]
  · isplitl [H0]; · iexists _; iexact H0
    isplitl [H1]; · iexists _; iexact H1
    isplitl [H2]; · iexists _; iexact H2
    iexact Hr
  iexact Hg

end Cert.KernelIdeal.Hand

end
-- ==== Proof.R0Body.lean ====
/-
  Region 0 (the similarity kernel): the body obligation of its pipeline, at any float instance.

  The body does one of three things, decided by the tile index d = t % 16 of the grid point:
    d = 0        : the three accumulators (qk, qq, kk) are stored zero, then updated with the tile's q and k blocks;
    0 < d < 15   : they are updated from what the previous tile left;
    d = 15       : they are updated, then read back, and the output block of the batch entry is stored from them.
  Every load and store goes through a whole buffer, so a buffer reads back as the payload of the last store into it.
  Each case is a triple over arbitrary memrefs and contents; the obligation at a point picks the case by the
  closed forms of the two conditions and threads the accumulators' contents through the region invariant.
-/
import proofs.«145453_j21732534517872_1_alg».proof.Proof.R0Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, and where the output window is idle -/

/-- The first conditional's condition (the tile index is 0), as the kernel computes it from the grid coordinates. -/
abbrev cond0_0 (i : grid0.Coords) : Prop := (Scalar.cmpi .ne (Scalar.extui (Scalar.cmpi .eq (BitVec.ofNat 32 (i 1).val) 0#32)) 0#32) = 1#1
/-- It holds exactly at the first tile of a batch entry. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the tile index is 15). -/
abbrev cond0_1 (i : grid0.Coords) : Prop := k0_cond2 i = 1#1
/-- It holds exactly at the last tile of a batch entry. -/
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last tile the output window is idle and not written back; at the last tile it is live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose LAST store went through the whole-shape rectangle at zero offsets reads back as that store's
    payload, whatever was stored before and whatever it held. -/
private theorem read_writes_cons_unit_zero {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The body's three triples -/

set_option maxHeartbeats 1000000 in
/-- The first tile of a batch entry: whatever the three accumulators held, they are reset to zero and then updated, so
    they end at `accStep x0 x1 accZero`; the input buffers and the output's staging buffer are handed back as found. -/
theorem kernel_first (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : cond0_0 i) (hc1 : ¬cond0_1 i)
    (x0 x1 : Vec F S1x512x2048 .f32) (xo : Vec F S1x512x1 .f32)
    (E : Set ℕ) (K : PUnit → sProp 𝕄) :
    iprop(owns (c : Thread nD τ) arg2 fullShare x0 ∗ owns (c : Thread nD τ) arg3 fullShare x1
        ∗ owns (c : Thread nD τ) arg4 fullShare xo
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (accStep x0 x1 (accZero (F := F))).1 ∗ owns (c : Thread nD τ) arg6 fullShare (accStep x0 x1 (accZero (F := F))).2.1
            ∗ owns (c : Thread nD τ) arg7 fullShare (accStep x0 x1 (accZero (F := F))).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    refine (read_writes_cons_unit_zero (S := S512x512) arg5.view _ hz2 _ _ _).trans ?_
    sl_unfold_words
    simp only [View.readAt_eq_ld, harg2.read_unread, harg3.read_unread,
      View.ld_unit_zero (S := S1x512x2048) hz3, View.readCov_unit_zero (S := S512x512) _ hz2]
    rfl
  isplitl [H6]
  · iexists _; isplitr
    swap; · iexact H6
    ipureintro
    refine (read_writes_cons_unit_zero (S := S512x1) arg6.view _ hz2 _ _ _).trans ?_
    sl_unfold_words
    simp only [View.readAt_eq_ld, harg2.read_unread,
      View.ld_unit_zero (S := S1x512x2048) hz3, View.readCov_unit_zero (S := S512x1) _ hz2]
    rfl
  · iexists _; isplitr
    swap; · iexact H7
    ipureintro
    refine (read_writes_cons_unit_zero (S := S512x1) arg7.view _ hz2 _ _ _).trans ?_
    sl_unfold_words
    simp only [View.readAt_eq_ld, harg3.read_unread,
      View.ld_unit_zero (S := S1x512x2048) hz3, View.readCov_unit_zero (S := S512x1) _ hz2]
    rfl

set_option maxHeartbeats 1000000 in
/-- A middle tile (neither the first nor the last of its batch entry): the three accumulators go from `a` to
    `accStep x0 x1 a`; the two input buffers and the output's staging buffer are handed back as found. -/
theorem kernel_mid (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : ¬cond0_0 i) (hc1 : ¬cond0_1 i)
    (x0 x1 : Vec F S1x512x2048 .f32) (xo : Vec F S1x512x1 .f32) (a : Acc F)
    (E : Set ℕ) (K : PUnit → sProp 𝕄) :
    iprop(owns (c : Thread nD τ) arg2 fullShare x0 ∗ owns (c : Thread nD τ) arg3 fullShare x1
        ∗ owns (c : Thread nD τ) arg4 fullShare xo
        ∗ owns (c : Thread nD τ) arg5 fullShare a.1 ∗ owns (c : Thread nD τ) arg6 fullShare a.2.1 ∗ owns (c : Thread nD τ) arg7 fullShare a.2.2
        ∗ (iprop(owns (c : Thread nD τ) arg2 fullShare x0 ∗ owns (c : Thread nD τ) arg3 fullShare x1
            ∗ owns (c : Thread nD τ) arg4 fullShare xo
            ∗ owns (c : Thread nD τ) arg5 fullShare (accStep x0 x1 a).1 ∗ owns (c : Thread nD τ) arg6 fullShare (accStep x0 x1 a).2.1
            ∗ owns (c : Thread nD τ) arg7 fullShare (accStep x0 x1 a).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    refine (read_writes_cons_unit_zero (S := S512x512) arg5.view _ hz2 _ _ _).trans ?_
    simp only [View.readAt_eq_ld, harg2.read_unread, harg3.read_unread, harg5.read_unread,
      View.ld_unit_zero (S := S1x512x2048) hz3, View.ld_unit_zero (S := S512x512) hz2]
    rfl
  isplitl [H6]
  · iexists _; isplitr
    swap; · iexact H6
    ipureintro
    refine (read_writes_cons_unit_zero (S := S512x1) arg6.view _ hz2 _ _ _).trans ?_
    simp only [View.readAt_eq_ld, harg2.read_unread, harg6.read_unread,
      View.ld_unit_zero (S := S1x512x2048) hz3, View.ld_unit_zero (S := S512x1) hz2]
    rfl
  · iexists _; isplitr
    swap; · iexact H7
    ipureintro
    refine (read_writes_cons_unit_zero (S := S512x1) arg7.view _ hz2 _ _ _).trans ?_
    simp only [View.readAt_eq_ld, harg3.read_unread, harg7.read_unread,
      View.ld_unit_zero (S := S1x512x2048) hz3, View.ld_unit_zero (S := S512x1) hz2]
    rfl

set_option maxHeartbeats 1000000 in
/-- The last tile of a batch entry: the accumulators go from `a` to `accStep x0 x1 a`, and the output's staging buffer,
    whatever it held, ends at `outOf` of the updated accumulators. -/
theorem kernel_last (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : ¬cond0_0 i) (hc1 : cond0_1 i)
    (x0 x1 : Vec F S1x512x2048 .f32) (a : Acc F)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare a.1 ∗ owns (c : Thread nD τ) arg6 fullShare a.2.1 ∗ owns (c : Thread nD τ) arg7 fullShare a.2.2
        ∗ (iprop(owns (c : Thread nD τ) arg2 fullShare x0 ∗ owns (c : Thread nD τ) arg3 fullShare x1
            ∗ owns (c : Thread nD τ) arg4 fullShare (outOf (accStep x0 x1 a))
            ∗ owns (c : Thread nD τ) arg5 fullShare (accStep x0 x1 a).1 ∗ owns (c : Thread nD τ) arg6 fullShare (accStep x0 x1 a).2.1
            ∗ owns (c : Thread nD τ) arg7 fullShare (accStep x0 x1 a).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%d2, %f2, -, H2⟩, ⟨%f5, %hf5, H5⟩, ⟨%f6, %hf6, H6⟩, ⟨%f7, %hf7, H7⟩, Hk⟩
  obtain rfl := harg2.eq_unread hf0; obtain rfl := harg3.eq_unread hf1
  obtain rfl := harg5.eq_unread hf5; obtain rfl := harg6.eq_unread hf6; obtain rfl := harg7.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_cons_unit_zero (S := S1x512x1) arg4.view _ hz3 _ _ _).trans ?_
    sl_unfold_words
    simp only [View.readAt_eq_ld, harg2.read_unread, harg3.read_unread, harg5.read_unread, harg6.read_unread, harg7.read_unread,
      View.ld_unit_zero (S := S1x512x2048) hz3, View.ld_unit_zero (S := S512x512) hz2, View.ld_unit_zero (S := S512x1) hz2,
      View.readCov_unit_zero (S := S512x512) _ hz2, View.readCov_unit_zero (S := S512x1) _ hz2]
    rfl
  isplitl [H5]
  · iexists _; isplitr
    swap; · iexact H5
    ipureintro
    refine (read_writes_cons_unit_zero (S := S512x512) arg5.view _ hz2 _ _ _).trans ?_
    simp only [View.readAt_eq_ld, harg2.read_unread, harg3.read_unread, harg5.read_unread,
      View.ld_unit_zero (S := S1x512x2048) hz3, View.ld_unit_zero (S := S512x512) hz2]
    rfl
  isplitl [H6]
  · iexists _; isplitr
    swap; · iexact H6
    ipureintro
    refine (read_writes_cons_unit_zero (S := S512x1) arg6.view _ hz2 _ _ _).trans ?_
    simp only [View.readAt_eq_ld, harg2.read_unread, harg6.read_unread,
      View.ld_unit_zero (S := S1x512x2048) hz3, View.ld_unit_zero (S := S512x1) hz2]
    rfl
  · iexists _; isplitr
    swap; · iexact H7
    ipureintro
    refine (read_writes_cons_unit_zero (S := S512x1) arg7.view _ hz2 _ _ _).trans ?_
    simp only [View.readAt_eq_ld, harg3.read_unread, harg7.read_unread,
      View.ld_unit_zero (S := S1x512x2048) hz3, View.ld_unit_zero (S := S512x1) hz2]
    rfl

/-! ## The body obligation -/

variable (V : (c : Dev nD) → (b : Ref sig .tc) → Buf (Elt F) ((c : Thread nD τ).loc b))

/-- Each window's current staging memref at point `t`, as the pipeline passes it to the body, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold their blocks; the tile index decides which of the three triples
    applies. At the first tile of a batch entry the accumulators come in at anything (at the grid's first point the
    class invariant's; at a later one what the previous batch entry left, which is forgotten) and leave at the update of
    zero; at every other tile they come in at what the previous point left and leave at its update; the output's buffer
    is handed back untouched except at the last tile, where it leaves at `outOf` of the updated accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_succ, PhiS0_succ, Phi0_castSucc]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [accAt0_eq V c t]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [show accPrev0 V c t = accZero from by unfold accPrev0; rw [if_pos h0]]
    by_cases hz : t.val = 0
    · rw [PhiS0_zero V c _ _ hz, PhiA0_eq]
      iintro ⟨⟨⟨HS0, HS1, HS2, Hr⟩, Hg⟩, Ho, ⟨%d0, H0⟩, ⟨%d1, H1⟩, ⟨%d2, H2⟩⟩
      iapply (kernel_first c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2
    · rw [PhiS0_pos V c _ _ hz]
      iintro ⟨⟨⟨HS0, HS1, HS2, Hr⟩, Hg⟩, Ho, ⟨%d0, H0⟩, ⟨%d1, H1⟩, ⟨%d2, H2⟩⟩
      iapply (kernel_first c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [show accPrev0 V c t = accAt0 V c (t.val - 1) (Nat.lt_of_le_of_lt (Nat.sub_le _ _) t.isLt) from by
      unfold accPrev0; rw [if_neg h0, dif_neg hz]]
    rw [PhiS0_pos V c _ _ hz]
    by_cases h1 : t.val % 16 = 15
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, accAt0_eq V c t]
      rw [show accPrev0 V c t = accAt0 V c (t.val - 1) (Nat.lt_of_le_of_lt (Nat.sub_le _ _) t.isLt) from by
        unfold accPrev0; rw [if_neg h0, dif_neg hz]]
      iintro ⟨⟨⟨HS0, HS1, HS2, Hr⟩, Hg⟩, Ho, ⟨%d0, H0⟩, ⟨%d1, H1⟩, ⟨%d2, H2⟩⟩
      iapply (kernel_last c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) (accAt0 V c (t.val - 1) (Nat.lt_of_le_of_lt (Nat.sub_le _ _) t.isLt)) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, HS1, HS2, Hr⟩, Hg⟩, Ho, ⟨%d0, H0⟩, ⟨%d1, H1⟩, ⟨%d2, H2⟩⟩
      iapply (kernel_mid c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) (accAt0 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.R1.lean ====
/-
  Region 1 (the combine kernel), its proof data at any float instance and any entry contents.

  The grid is (batch b, tile d) with 16 tiles of 2048 along the long axis of length 32768; point t is
  (t / 16, t % 16). At a point the body reads the weight block  w[b, :, 0]  (512 x 1: one block per batch entry,
  the same for its 16 tiles, so it is brought in at tile 0 only and found in place afterwards) and the value block
  v[b, :, 2048 d .. 2048 d + 2047]  (512 x 2048), and stores over the whole output block
    out[b, m, 2048 d + j] = w[b, m] * v[b, m, 2048 d + j].
  Nothing is carried from one point to the next: the region invariant is the class's own, and what the body leaves
  in the output's buffer is the product payload of the two input blocks at that point.
-/
import proofs.«145453_j21732534517872_1_alg».proof.Proof.Gen.KernelIdeal.Launch
import proofs.«145453_j21732534517872_1_alg».proof.Proof.Gen.KernelIdeal.Skeleton
import proofs.«145453_j21732534517872_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight window's staging buffer holds its block at every point: brought in at tile 0 of a batch entry, and at
    the other tiles still there, the block index (b, 0, 0) not having moved and the body leaving the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point (it is brought in at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of every access of the body: zero on each axis. -/
theorem off1_zero : (![0, 0, 0] : Fin 3 → Nat) = fun _ => 0 := funext fun a => by fin_cases a <;> rfl

/-- The whole output block, as a rectangle of its buffer. -/
abbrev r1_out : Rect S1x512x2048 := Rect.unit (s := S1x512x2048) ![0, 0, 0] S1x512x2048.size inb_S1x512x2048_S1x512x2048_0_0_0

/-- The one store covers the output block. -/
theorem cover1_2 (p : Vec F S1x512x2048 .f32) (y : S1x512x2048.Idx) :
    ∃ pc ∈ ([⟨r1_out, p⟩] : List (View.Piece (Elt F) S1x512x2048 .f32)), y ∈ pc.1.set :=
  ⟨⟨r1_out, p⟩, List.mem_singleton_self _, View.mem_set_unit_zero (S := S1x512x2048) off1_zero inb_S1x512x2048_S1x512x2048_0_0_0 y⟩

/-! ## The body's triple -/

set_option maxHeartbeats 1000000 in
/-- The body on whole staging memrefs, the weight's at contents `x0`, the value's at `x1` and the output's at
    anything, runs to the continuation holding the two inputs as they were and the output's buffer at the product
    payload of `x0` and `x1`: both loads read their whole buffers and the one store covers the output's. -/
theorem sound_kernel1 (c : Dev nD) (E : Set ℕ) (i : grid1.Coords)
    (arg2 : Memref sig .tc .vmem S1x512x1 .f32) (harg2 : arg2.IsWhole)
    (arg3 : Memref sig .tc .vmem S1x512x2048 .f32) (harg3 : arg3.IsWhole)
    (arg4 : Memref sig .tc .vmem S1x512x2048 .f32) (harg4 : arg4.IsWhole)
    (x0 : Vec F S1x512x1 .f32) (x1 : Vec F S1x512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__combine_kernel i arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rw [View.canon_unit_zero off1_zero]
  simp only [View.readAt_eq_ld, View.ld_unit_zero (S := S1x512x1) off1_zero, View.ld_unit_zero (S := S1x512x2048) off1_zero]

/-! ## The proof data -/

/-- Region 1's proof data on core `c`: the arrays as the region finds them; after the body each input's buffer at its
    block and the output's at the product payload of the two input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The launch of the two-region program at any float instance.

  @main is: a host stretch (the three inputs re-laid as [2, 512, 32768] arrays), the similarity kernel (region 0, which
  writes the [2, 512, 1] array of weights), the combining kernel (region 1, which writes the weighted values), and a host
  stretch that lays the result back out. Between items the core holds every unscoped buffer at a valuation: the launch
  contents, each host stretch applied, each region's output array replaced by what its write-backs leave. The run ends
  with every unscoped buffer at the last valuation; the frame (the arguments end as launched) and the result array's
  contents are read off it.
-/
import proofs.«145453_j21732534517872_1_alg».proof.Proof.R0Body
import proofs.«145453_j21732534517872_1_alg».proof.Proof.R1
import proofs.«145453_j21732534517872_1_alg».proof.Proof.Gen.KernelIdeal.Regions
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0 is entered from the launch contents after the first host stretch. -/
abbrev E0 : (c : Dev nD) → (b : Ref sig .tc) → Buf (Elt F) ((c : Thread nD τ).loc b) := fun c b => Gen.V1 m c b

/-- At region 0's exit: its arrays at what the write-backs leave, every other buffer as entered. -/
def X2 (c : Dev nD) : Valuation τ sig (Elt F) :=
  Pipeline.withArrays spec0 c (Gen.V1 m c) fun w => (dat0 (E0 m) c).arrAt w cfg0.N

theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w

/-- What the regions leave, as the unknowns of the host side: region 0's output array read off `X2`. -/
def outs2 : Gen.Outs (F := F) := fun _ r c => X2 m c r

/-- Region 1 is entered from there: the entry contents with region 0's output array replaced. -/
abbrev E1 : (c : Dev nD) → (b : Ref sig .tc) → Buf (Elt F) ((c : Thread nD τ).loc b) := fun c b => Gen.V2 m (outs2 m) c b

/-- At region 1's exit. -/
def X4 (c : Dev nD) : Valuation τ sig (Elt F) :=
  Pipeline.withArrays spec1 c (Gen.V2 m (outs2 m) c) fun w => (dat1 (E1 m) c).arrAt w cfg1.N

theorem X4_arr (c : Dev nD) (w : Fin cfg1.W) :
    X4 m c (Proc.devRef .tc (Pipeline.arrRef spec1 w)) = (dat1 (E1 m) c).arrAt w cfg1.N := by
  unfold X4; exact Pipeline.withArrays_arr spec1 launch1.win.arr_inj c _ _ w

/-- Both regions' outputs. -/
def outs : Gen.Outs (F := F) := fun J r c => if J = 2 then X2 m c r else X4 m c r

theorem V2_outs (c : Dev nD) : Gen.V2 m (outs m) c = Gen.V2 m (outs2 m) c := rfl

/-- After region 0 each of its arrays holds what the pipeline leaves, -/
theorem hF0 (c : Dev nD) (w : Fin cfg0.W) : (dat0 (E0 m) c).arrAt w cfg0.N = E1 m c (Pipeline.arrRef spec0 w) := by
  match w with
  | ⟨0, _⟩ =>
    refine ((dat0 (E0 m) c).arrAt_in 0 rfl _).trans ((A_eq0 (E0 m) c 0).trans ?_)
    exact (Gen.V2_of m (outs2 m) c main_v6 (by decide)).symm
  | ⟨1, _⟩ =>
    refine ((dat0 (E0 m) c).arrAt_in 1 rfl _).trans ((A_eq0 (E0 m) c 1).trans ?_)
    exact (Gen.V2_of m (outs2 m) c main_v7 (by decide)).symm
  | ⟨2, _⟩ =>
    show _ = Function.update (Gen.V1 m c) (Proc.devRef .tc main_v9) (outs2 m 2 main_v9 c) (Proc.devRef .tc main_v9)
    rw [Function.update_self]
    exact (X2_arr m c 2).symm

/-- and every other buffer what it held at entry. -/
theorem hrest0 (c : Dev nD) : ∀ b, b ∉ Finset.univ.image (Pipeline.arrRef spec0) → E1 m c b = E0 m c b := fun b hb =>
  Gen.V2_of m (outs2 m) c b (by
    intro h
    rw [List.mem_singleton] at h
    exact hb (Finset.mem_image.mpr ⟨2, Finset.mem_univ _, h.symm⟩))

theorem hF1 (c : Dev nD) (w : Fin cfg1.W) : (dat1 (E1 m) c).arrAt w cfg1.N = Gen.V3 m (outs m) c (Pipeline.arrRef spec1 w) := by
  match w with
  | ⟨0, _⟩ =>
    refine ((dat1 (E1 m) c).arrAt_in 0 rfl _).trans ((A_eq1 (E1 m) c 0).trans ?_)
    exact (Gen.V3_of m (outs m) c main_v9 (by decide)).symm
  | ⟨1, _⟩ =>
    refine ((dat1 (E1 m) c).arrAt_in 1 rfl _).trans ((A_eq1 (E1 m) c 1).trans ?_)
    exact (Gen.V3_of m (outs m) c main_v8 (by decide)).symm
  | ⟨2, _⟩ =>
    show _ = Function.update (Gen.V2 m (outs m) c) (Proc.devRef .tc main_v10) (outs m 3 main_v10 c) (Proc.devRef .tc main_v10)
    rw [Function.update_self]
    exact (X4_arr m c 2).symm

theorem hrest1 (c : Dev nD) : ∀ b, b ∉ Finset.univ.image (Pipeline.arrRef spec1) → Gen.V3 m (outs m) c b = E1 m c b := fun b hb =>
  Gen.V3_of m (outs m) c b (by
    intro h
    rw [List.mem_singleton] at h
    exact hb (Finset.mem_image.mpr ⟨2, Finset.mem_univ _, h.symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev Es : Fin 3 → Dev nD → sProp 𝕄 := fun _ c => R c

set_option backward.isDefEq.respectTransparency.types false in
/-- Region 0 over the thread state: entered from every unscoped buffer at the contents after the first host stretch,
    left with its output array at what the last tiles' write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (E0 m) c)
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from where region 0 left, left with its output array written block by block. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer ends at the last valuation of the fold through @main: the launch contents, each host stretch applied,
    each region's output array replaced by what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv Es () (pdats m) (reg0 m) (reg1 m))
    (fun c Q => by
      rewrite [main_chain c, Pipeline.Seg.run_eq_chain,
        show (Gen.segs m (outs m) 𝒱₀ L lv Es () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outs m) c) ∗ ∃ r, prngReg c r))
    (hch := fun c => ⟨.rfl, .rfl, .rfl, .rfl,
      (show iprop(StableHlo.held (c : Thread nD τ) (Pipeline.ucRefs τ sig) (Gen.V4 m (outs m) c) ∗ R c)
          ⊢ (iprop((StableHlo.held (c : Thread nD τ) (Pipeline.ucRefs τ sig) (Gen.V4 m (outs m) c) ∗ ∃ r, prngReg c r)
            ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c)⟩) (run_all m ρ)

/-- The result array ends at the last valuation's entry for it. -/
theorem run_result : θ_run defs (onTc (τ := τ) (main (F := F))) ⟨m, fun _ => 0, ρ⟩ (fun r => ∀ c : Dev nD,
      r.2.mem ((c.tc : Thread nD τ).loc main_v13) = Gen.V4 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v13 (by decide)),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c)⟩) (run_all m ρ)

end Cert.KernelIdeal.Hand

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Spec.lean ====
/-
  The specification: the result of both programs as ONE function of three arrays of shape [2, 512, 32768]
  (batch, token, content), over the extended reals, and the law that joins the two arrangements of it.

  With s the scale word and e the smoothing word (both kept as words: the same on both sides, never evaluated),
    qk[b, n, m] = sum_d (Q[b, n, d] * s) * (K[b, m, d] * s),      sq X [b, n] = sum_d (X[b, n, d] * s)^2,
    sim[b, n, m] = exp (log (qk[b, n, m] + e) - log (sq Q [b, n] + sq K [b, m] - qk[b, n, m] + e)),
    attn[b, m]   = sum_n sim[b, n, m],                             out[b, m, d] = attn[b, m] * V[b, m, d].
  One program contracts over d at once; the other accumulates the contraction in 16 consecutive tiles of 2048,
  writes the product with its factors swapped and adds the two squared norms in the other order. Addition and
  multiplication of extended reals are commutative and addition is associative, so a sum over 16 * 2048 positions
  is the sum of 16 runs of 2048 whatever the terms (infinite ones included): no finiteness is needed.
-/
import Idealize.ShloMosaic.PureOps.Ideal
import Idealize.ShloMosaic.Lib.ValueIdx
import proofs.«145453_j21732534517872_1_alg».proof.Proof.LibBlockSum

noncomputable section

open scoped BigOperators

namespace Cert.Spec

open Idealize.ShloMosaic Idealize.ShloMosaic.ValueIdx

/-- The shapes of the flattened arrays and of the per-token result of the first kernel. -/
abbrev T3 : Shape := ⟨3, ![2, 512, 32768]⟩
abbrev T1 : Shape := ⟨3, ![2, 512, 1]⟩
abbrev A3 : Type := T3.Idx → EReal

/-- The scale and the smoothing constant, as the words both programs carry. -/
def sc : EReal := Ideal.ofBits .f32 0x3BB504F3#32
def eps : EReal := Ideal.ofBits .f32 0x3727C5AC#32

/-- The scaled dot product of token `n` of `Q` with token `m` of `K`, in batch entry `b`. -/
def qkS (Q K : A3) (b : Fin 2) (n m : Fin 512) : EReal := ∑ d : Fin 32768, (Q (ix3 b n d) * sc) * (K (ix3 b m d) * sc)
/-- The scaled squared norm of token `n` of `X`. -/
def sqS (X : A3) (b : Fin 2) (n : Fin 512) : EReal := ∑ d : Fin 32768, (X (ix3 b n d) * sc) * (X (ix3 b n d) * sc)
/-- The similarity of query token `n` and key token `m`. -/
def simS (Q K : A3) (b : Fin 2) (n m : Fin 512) : EReal :=
  Ideal.exp (Ideal.log (qkS Q K b n m + eps) - Ideal.log (sqS Q b n + sqS K b m - qkS Q K b n m + eps))
/-- Key token `m`'s weight: the similarities summed over the query tokens. -/
def attnS (Q K : A3) (b : Fin 2) (m : Fin 512) : EReal := ∑ n : Fin 512, simS Q K b n m
/-- The weights as the [2, 512, 1] array the first kernel produces. -/
def attnArr (Q K : A3) : T1.Idx → EReal := fun i => attnS Q K (i 0) (i 1)
/-- The result on the flattened layout. -/
def outS (Q K V : A3) : A3 := fun i => attnS Q K (i 0) (i 1) * V i

theorem attnArr_apply (Q K : A3) (b : Fin 2) (m : Fin 512) (u : Fin 1) : attnArr Q K (ix3 b m u) = attnS Q K b m := rfl
theorem outS_apply (Q K V : A3) (b : Fin 2) (m : Fin 512) (d : Fin 32768) :
    outS Q K V (ix3 b m d) = attnS Q K b m * V (ix3 b m d) := rfl

/-! ## The contraction tile by tile -/

/-- Token `n`'s scaled entry at content position `k` (zero past the end, which no tile reaches). -/
def atN (X : A3) (b : Fin 2) (n : Fin 512) (k : ℕ) : EReal := if h : k < 32768 then X (ix3 b n ⟨k, h⟩) * sc else 0

theorem atN_val (X : A3) (b : Fin 2) (n : Fin 512) (d : Fin 32768) : atN X b n d.val = X (ix3 b n d) * sc := by
  unfold atN; rw [dif_pos d.isLt]

theorem atN_of_lt (X : A3) (b : Fin 2) (n : Fin 512) (k : ℕ) (h : k < 32768) : atN X b n k = X (ix3 b n ⟨k, h⟩) * sc := by
  unfold atN; rw [dif_pos h]

/-- What tile `s` adds to the dot product of key token `m` with query token `n` (the factors in the accumulating
    program's order). -/
def qkTile (Q K : A3) (b : Fin 2) (n m : Fin 512) (s : ℕ) : EReal := ∑ x : Fin 2048, atN K b m (2048 * s + x.val) * atN Q b n (2048 * s + x.val)
/-- What tile `s` adds to token `n`'s squared norm. -/
def sqTile (X : A3) (b : Fin 2) (n : Fin 512) (s : ℕ) : EReal := ∑ x : Fin 2048, atN X b n (2048 * s + x.val) * atN X b n (2048 * s + x.val)

/-- The dot product accumulated over the first `k` tiles. -/
def qkP (Q K : A3) (b : Fin 2) (n m : Fin 512) (k : ℕ) : EReal := ∑ s ∈ Finset.range k, qkTile Q K b n m s
/-- The squared norm accumulated over the first `k` tiles. -/
def sqP (X : A3) (b : Fin 2) (n : Fin 512) (k : ℕ) : EReal := ∑ s ∈ Finset.range k, sqTile X b n s

theorem qkP_zero (Q K : A3) (b : Fin 2) (n m : Fin 512) : qkP Q K b n m 0 = 0 := by unfold qkP; rw [Finset.range_zero, Finset.sum_empty]
theorem qkP_succ (Q K : A3) (b : Fin 2) (n m : Fin 512) (k : ℕ) : qkP Q K b n m (k + 1) = qkP Q K b n m k + qkTile Q K b n m k := by
  unfold qkP; rw [Finset.sum_range_succ]
theorem sqP_zero (X : A3) (b : Fin 2) (n : Fin 512) : sqP X b n 0 = 0 := by unfold sqP; rw [Finset.range_zero, Finset.sum_empty]
theorem sqP_succ (X : A3) (b : Fin 2) (n : Fin 512) (k : ℕ) : sqP X b n (k + 1) = sqP X b n k + sqTile X b n k := by
  unfold sqP; rw [Finset.sum_range_succ]

/-- Sixteen tiles make the whole contraction (with the factors put back in the other program's order). -/
theorem qkP_full (Q K : A3) (b : Fin 2) (n m : Fin 512) : qkP Q K b n m 16 = qkS Q K b n m := by
  unfold qkP qkTile qkS
  rw [← Cert.LibBlockSum.sum_fin_mul (fun k => atN K b m k * atN Q b n k) 16 2048]
  exact Finset.sum_congr rfl fun d _ => by
    rw [atN_val K b m d, atN_val Q b n d, mul_comm]

theorem sqP_full (X : A3) (b : Fin 2) (n : Fin 512) : sqP X b n 16 = sqS X b n := by
  unfold sqP sqTile sqS
  rw [← Cert.LibBlockSum.sum_fin_mul (fun k => atN X b n k * atN X b n k) 16 2048]
  exact Finset.sum_congr rfl fun d _ => by rw [atN_val X b n d]

/-- The similarity as the accumulating program forms it from its three accumulators after the last tile: the
    two squared norms added in the other order. -/
theorem sim_of_acc (Q K : A3) (b : Fin 2) (n m : Fin 512) :
    Ideal.exp (Ideal.log (qkP Q K b n m 16 + eps) - Ideal.log (sqP K b m 16 + sqP Q b n 16 - qkP Q K b n m 16 + eps))
      = simS Q K b n m := by
  unfold simS
  rw [qkP_full, sqP_full, sqP_full, add_comm (sqS K b m) (sqS Q b n)]

end Cert.Spec

end
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.AccValue.lean ====
/-
  The three accumulators of the similarity kernel, read as numbers (at the exact instance).

  After the body at point t = (batch b = t / 16, tile d = t % 16) the scratch buffers hold the contraction over the
  tiles 0 .. d of batch entry b:  qk[m, n] = sum over those tiles of sum_j (K[b, m, 2048 s + j] * sc) * (Q[b, n, 2048 s + j] * sc),
  qq[n] and kk[m] the same with both factors from Q, from K. By induction on the point: tile 0 starts from zero, every
  other tile from what the point before left; one tile adds the matrix product of the two scaled blocks (a sum over
  the 2048 columns) and the two row sums of squares.
-/
import proofs.«145453_j21732534517872_1_alg».proof.Proof.R0Defs
import proofs.«145453_j21732534517872_1_alg».proof.Proof.Spec
import proofs.«145453_j21732534517872_1_alg».proof.Proof.LibRowReduce
import proofs.«145453_j21732534517872_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The batch entry of a grid point. -/
def bOf (t : Fin cfg0.N) : Fin 2 := ⟨t.val / 16, by have := t.isLt; have h : cfg0.N = 32 := N_0; omega⟩

/-- The two arrays region 0 reads, as it finds them. -/
abbrev Qa (c : Dev nD) : Cert.Spec.A3 := V c main_v6
abbrev Ka (c : Dev nD) : Cert.Spec.A3 := V c main_v7

/-! ## One tile's update, entry by entry -/

/-- The scale, as the word the payloads carry. -/
theorem sc_eq : Cert.Spec.sc = Ideal.ofBits .f32 0x3BB504F3#32 := rfl

/-- A scaled block read at (r, j). -/
theorem pay6_apply (x : Vec Ideal S1x512x2048 .f32) (r : Fin 512) (j : Fin 2048) :
    k0_pay6 (F := Ideal) x (ix2 r j) = x (ix3 (0 : Fin 1) r j) * Cert.Spec.sc := by
  rw [sc_eq]
  unfold k0_pay6
  rw [mulf_apply, broadcast_apply]
  refine congrArg (· * _) ?_
  refine shapeCast_apply x _ (ix2 r j) (ix3 (0 : Fin 1) r j) ?_
  rw [Shape.rowMajor_val_three, Shape.rowMajor_val_two]
  show (0 * 512 + r.val) * 2048 + j.val = r.val * 2048 + j.val
  omega

theorem pay7_apply (x : Vec Ideal S1x512x2048 .f32) (r : Fin 512) (j : Fin 2048) :
    k0_pay7 (F := Ideal) x (ix2 r j) = x (ix3 (0 : Fin 1) r j) * Cert.Spec.sc := by
  rw [sc_eq]
  unfold k0_pay7
  rw [mulf_apply, broadcast_apply]
  refine congrArg (· * _) ?_
  refine shapeCast_apply x _ (ix2 r j) (ix3 (0 : Fin 1) r j) ?_
  rw [Shape.rowMajor_val_three, Shape.rowMajor_val_two]
  show (0 * 512 + r.val) * 2048 + j.val = r.val * 2048 + j.val
  omega

/-! The product's operand indices, axis by axis: the left operand is read at (row of the result, contraction
    position), the right one at (contraction position, column of the result). -/

theorem lhs_mm_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_mm_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_mm_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_mm_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product of a [512, 2048] array with the transpose of another, into zero, at (mm, nn): the sum over the
    2048 columns of the two rows' products. -/
theorem matmul_rows_apply (A B : FVec Ideal S512x2048 .bf16) (mm nn : Fin 512) :
    matmul dot_S512x2048_S2048x512_S512x512_1_0_0_1_n_n none A
        (transpose S2048x512 [1, 0] B transposes_S512x2048_p1_0_S2048x512) (constant (F := Ideal) S512x512 .f32 0x00000000#32) (ix2 mm nn)
      = ∑ j : Fin 2048, A (ix2 mm j) * B (ix2 nn j) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 mm nn) ((ValueIdx.contrEquiv1 dot_S512x2048_S2048x512_S512x512_1_0_0_1_n_n 2048 rfl rfl).symm k) = ix2 mm k := funext fun a => Fin.ext (by
    match a with
    | ⟨0, _⟩ => exact lhs_mm_0 _ _
    | ⟨1, _⟩ => exact (lhs_mm_1 _ _).trans hk)
  rw [el]
  refine congrArg (A (ix2 mm k) * ·) ?_
  refine transpose_apply [1, 0] B transposes_S512x2048_p1_0_S2048x512 _ (ix2 nn k) fun b => ?_
  match b with
  | ⟨0, _⟩ => exact ((rhs_mm_0 _ _).trans hk).symm
  | ⟨1, _⟩ => exact (rhs_mm_1 (ix2 mm nn) _).symm

/-! One tile's update of the three accumulators, entry by entry. -/

/-- The product accumulator at (mm, nn) gains the sum over the tile's columns of the scaled k row mm times the scaled q row nn. -/
theorem pay8_apply (x0 x1 : Vec Ideal S1x512x2048 .f32) (a : Vec Ideal S512x512 .f32) (mm nn : Fin 512) :
    k0_pay8 (F := Ideal) x0 x1 a (ix2 mm nn)
      = a (ix2 mm nn) + ∑ j : Fin 2048, (x1 (ix3 (0 : Fin 1) mm j) * Cert.Spec.sc) * (x0 (ix3 (0 : Fin 1) nn j) * Cert.Spec.sc) := by
  unfold k0_pay8
  rw [shapeCast_self, addf_apply]
  refine congrArg (a (ix2 mm nn) + ·) ?_
  refine (matmul_rows_apply _ _ mm nn).trans ?_
  refine Finset.sum_congr rfl fun j _ => ?_
  rw [truncf_apply, truncf_apply, pay7_apply, pay6_apply]

/-- The k norm accumulator at (mm, 0) gains the sum over the tile's columns of the scaled k row's squares. -/
theorem pay9_apply (x1 : Vec Ideal S1x512x2048 .f32) (a : Vec Ideal S512x1 .f32) (mm : Fin 512) :
    k0_pay9 (F := Ideal) x1 a (ix2 mm (0 : Fin 1))
      = a (ix2 mm (0 : Fin 1)) + ∑ j : Fin 2048, (x1 (ix3 (0 : Fin 1) mm j) * Cert.Spec.sc) * (x1 (ix3 (0 : Fin 1) mm j) * Cert.Spec.sc) := by
  unfold k0_pay9
  rw [shapeCast_self, addf_apply]
  refine congrArg (a (ix2 mm (0 : Fin 1)) + ·) ?_
  refine (Cert.LibKeepdims.shapeCast_a_a1_apply _ _ mm (0 : Fin 1)).trans ?_
  refine (Cert.LibRowReduce.multiReduction_add_row _ _ _ _ _ mm).trans ?_
  refine Finset.sum_congr rfl fun j _ => ?_
  rw [mulf_apply, pay7_apply]

/-- The q norm accumulator likewise, from the q block. -/
theorem pay1_10_apply (x0 : Vec Ideal S1x512x2048 .f32) (a : Vec Ideal S512x1 .f32) (nn : Fin 512) :
    k0_pay1 (F := Ideal) a (k0_pay10 (F := Ideal) x0) (ix2 nn (0 : Fin 1))
      = a (ix2 nn (0 : Fin 1)) + ∑ j : Fin 2048, (x0 (ix3 (0 : Fin 1) nn j) * Cert.Spec.sc) * (x0 (ix3 (0 : Fin 1) nn j) * Cert.Spec.sc) := by
  unfold k0_pay1 k0_pay10
  rw [shapeCast_self, addf_apply]
  refine congrArg (a (ix2 nn (0 : Fin 1)) + ·) ?_
  refine (Cert.LibKeepdims.shapeCast_a_a1_apply _ _ nn (0 : Fin 1)).trans ?_
  refine (Cert.LibRowReduce.multiReduction_add_row _ _ _ _ _ nn).trans ?_
  refine Finset.sum_congr rfl fun j _ => ?_
  rw [mulf_apply, pay6_apply]

/-- Tile 0 starts from zero. -/
theorem pay3_apply (mm nn : Fin 512) : k0_pay3 (F := Ideal) (ix2 mm nn) = 0 := by
  unfold k0_pay3
  rw [shapeCast_self, broadcast_apply]
  exact Ideal.ofBits_zero_f32
theorem pay4_apply (nn : Fin 512) : k0_pay4 (F := Ideal) (ix2 nn (0 : Fin 1)) = 0 := by
  unfold k0_pay4
  rw [shapeCast_self, broadcast_apply]
  exact Ideal.ofBits_zero_f32
theorem pay5_apply (mm : Fin 512) : k0_pay5 (F := Ideal) (ix2 mm (0 : Fin 1)) = 0 := by
  unfold k0_pay5
  rw [shapeCast_self, broadcast_apply]
  exact Ideal.ofBits_zero_f32

/-! ## The blocks are the tiles of the two arrays -/

/-- The printed index maps over the grid: both input windows' block at point t is (t / 16, 0, t % 16). -/
theorem idx_facts0 : ∀ t : Fin cfg0.N, win0_0.index t (0 : Fin 3) = t.val / 16
    ∧ win0_0.index t (1 : Fin 3) = 0
    ∧ win0_0.index t (2 : Fin 3) = t.val % 16
    ∧ win0_1.index t (0 : Fin 3) = t.val / 16
    ∧ win0_1.index t (1 : Fin 3) = 0
    ∧ win0_1.index t (2 : Fin 3) = t.val % 16 :=
  (by decide +kernel : ∀ t : Fin grid0.N, _)

theorem col_lt (t : Fin cfg0.N) (j : Fin 2048) : 2048 * (t.val % 16) + j.val < 32768 := by
  have := j.isLt; have := Nat.mod_lt t.val (show 0 < 16 by decide); omega

/-- The q window's block at point t, read at (0, r, j): the array at (t / 16, r, 2048 (t % 16) + j). -/
theorem iblk0_q (c : Dev nD) (t : Fin cfg0.N) (r : Fin 512) (j : Fin 2048) :
    iblk0 V c 0 t (ix3 (0 : Fin 1) r j) = Qa V c (ix3 (bOf t) r ⟨2048 * (t.val % 16) + j.val, col_lt t j⟩) := by
  obtain ⟨e0, e1, e2, -, -, -⟩ := idx_facts0 t
  show V c main_v6 (((cfg0.win 0).blk t).view.emb (ix3 (0 : Fin 1) r j)) = V c main_v6 _
  refine congrArg (V c main_v6) ?_
  funext a; apply Fin.ext
  match a with
  | ⟨0, _⟩ => show win0_0.index t (0 : Fin 3) * 1 + 1 * 0 = t.val / 16; omega
  | ⟨1, _⟩ => show win0_0.index t (1 : Fin 3) * 512 + 1 * r.val = r.val; omega
  | ⟨2, _⟩ => show win0_0.index t (2 : Fin 3) * 2048 + 1 * j.val = 2048 * (t.val % 16) + j.val; omega

theorem iblk0_k (c : Dev nD) (t : Fin cfg0.N) (r : Fin 512) (j : Fin 2048) :
    iblk0 V c 1 t (ix3 (0 : Fin 1) r j) = Ka V c (ix3 (bOf t) r ⟨2048 * (t.val % 16) + j.val, col_lt t j⟩) := by
  obtain ⟨-, -, -, e0, e1, e2⟩ := idx_facts0 t
  show V c main_v7 (((cfg0.win 1).blk t).view.emb (ix3 (0 : Fin 1) r j)) = V c main_v7 _
  refine congrArg (V c main_v7) ?_
  funext a; apply Fin.ext
  match a with
  | ⟨0, _⟩ => show win0_1.index t (0 : Fin 3) * 1 + 1 * 0 = t.val / 16; omega
  | ⟨1, _⟩ => show win0_1.index t (1 : Fin 3) * 512 + 1 * r.val = r.val; omega
  | ⟨2, _⟩ => show win0_1.index t (2 : Fin 3) * 2048 + 1 * j.val = 2048 * (t.val % 16) + j.val; omega

/-! The blocks as the tiles of the two arrays. -/

/-- The two input blocks at a point, at their literal type. -/
abbrev qBlk (c : Dev nD) (t : Fin cfg0.N) : Vec Ideal S1x512x2048 .f32 := iblk0 V c 0 t
abbrev kBlk (c : Dev nD) (t : Fin cfg0.N) : Vec Ideal S1x512x2048 .f32 := iblk0 V c 1 t

theorem blk_q (c : Dev nD) (t : Fin cfg0.N) (r : Fin 512) (j : Fin 2048) :
    qBlk V c t (ix3 (0 : Fin 1) r j) * Cert.Spec.sc = Cert.Spec.atN (Qa V c) (bOf t) r (2048 * (t.val % 16) + j.val) :=
  (congrArg (· * Cert.Spec.sc) (iblk0_q V c t r j)).trans (Cert.Spec.atN_of_lt (Qa V c) (bOf t) r _ (col_lt t j)).symm

theorem blk_k (c : Dev nD) (t : Fin cfg0.N) (r : Fin 512) (j : Fin 2048) :
    kBlk V c t (ix3 (0 : Fin 1) r j) * Cert.Spec.sc = Cert.Spec.atN (Ka V c) (bOf t) r (2048 * (t.val % 16) + j.val) :=
  (congrArg (· * Cert.Spec.sc) (iblk0_k V c t r j)).trans (Cert.Spec.atN_of_lt (Ka V c) (bOf t) r _ (col_lt t j)).symm

/-! The three accumulators hold the contraction over the first k tiles of batch entry b. -/

def Holds (Q K : Cert.Spec.A3) (b : Fin 2) (k : ℕ) (a : Acc Ideal) : Prop :=
  (∀ mm nn : Fin 512, a.1 (ix2 mm nn) = Cert.Spec.qkP Q K b nn mm k)
    ∧ (∀ nn : Fin 512, a.2.1 (ix2 nn (0 : Fin 1)) = Cert.Spec.sqP Q b nn k)
    ∧ (∀ mm : Fin 512, a.2.2 (ix2 mm (0 : Fin 1)) = Cert.Spec.sqP K b mm k)

/-- Zero holds the empty contraction. -/
theorem holds_zero (Q K : Cert.Spec.A3) (b : Fin 2) : Holds Q K b 0 (accZero (F := Ideal)) :=
  ⟨fun mm nn => (pay3_apply mm nn).trans (Cert.Spec.qkP_zero Q K b nn mm).symm,
   fun nn => (pay4_apply nn).trans (Cert.Spec.sqP_zero Q b nn).symm,
   fun mm => (pay5_apply mm).trans (Cert.Spec.sqP_zero K b mm).symm⟩

/-- One tile's update, from blocks that are tile s of the two arrays, adds tile s. -/
theorem holds_step (Q K : Cert.Spec.A3) (b : Fin 2) (s : ℕ) (x0 x1 : Vec Ideal S1x512x2048 .f32) (a : Acc Ideal)
    (h : Holds Q K b s a)
    (h0 : ∀ (r : Fin 512) (j : Fin 2048), x0 (ix3 (0 : Fin 1) r j) * Cert.Spec.sc = Cert.Spec.atN Q b r (2048 * s + j.val))
    (h1 : ∀ (r : Fin 512) (j : Fin 2048), x1 (ix3 (0 : Fin 1) r j) * Cert.Spec.sc = Cert.Spec.atN K b r (2048 * s + j.val)) :
    Holds Q K b (s + 1) (accStep x0 x1 a) := by
  obtain ⟨hqk, hqq, hkk⟩ := h
  refine ⟨fun mm nn => ?_, fun nn => ?_, fun mm => ?_⟩
  · show k0_pay8 (F := Ideal) x0 x1 a.1 (ix2 mm nn) = _
    rw [pay8_apply, hqk, Cert.Spec.qkP_succ]
    refine congrArg (Cert.Spec.qkP Q K b nn mm s + ·) ?_
    unfold Cert.Spec.qkTile
    exact Finset.sum_congr rfl fun j _ => by rw [h1, h0]
  · show k0_pay1 (F := Ideal) a.2.1 (k0_pay10 (F := Ideal) x0) (ix2 nn (0 : Fin 1)) = _
    rw [pay1_10_apply, hqq, Cert.Spec.sqP_succ]
    refine congrArg (Cert.Spec.sqP Q b nn s + ·) ?_
    unfold Cert.Spec.sqTile
    exact Finset.sum_congr rfl fun j _ => by rw [h0]
  · show k0_pay9 (F := Ideal) x1 a.2.2 (ix2 mm (0 : Fin 1)) = _
    rw [pay9_apply, hkk, Cert.Spec.sqP_succ]
    refine congrArg (Cert.Spec.sqP K b mm s + ·) ?_
    unfold Cert.Spec.sqTile
    exact Finset.sum_congr rfl fun j _ => by rw [h1]

/-- After the body at point n the accumulators hold the contraction over the tiles 0 .. n % 16 of batch entry n / 16:
    by induction on the point. -/
theorem acc_holds (c : Dev nD) (n : ℕ) :
    ∀ hn : n < cfg0.N, Holds (Qa V c) (Ka V c) (bOf ⟨n, hn⟩) (n % 16 + 1) (accAt0 V c n hn) := by
  induction n with
  | zero =>
    intro hn
    rw [show accAt0 V c 0 hn = accStep (qBlk V c ⟨0, hn⟩) (kBlk V c ⟨0, hn⟩) accZero from rfl]
    refine holds_step (Qa V c) (Ka V c) (bOf ⟨0, hn⟩) (0 % 16) _ _ _ ?_ (blk_q V c ⟨0, hn⟩) (blk_k V c ⟨0, hn⟩)
    rw [Nat.zero_mod]
    exact holds_zero _ _ _
  | succ n ih =>
    intro hn
    by_cases h : (n + 1) % 16 = 0
    · rw [show accAt0 V c (n + 1) hn = accStep (qBlk V c ⟨n + 1, hn⟩) (kBlk V c ⟨n + 1, hn⟩)
          (if (n + 1) % 16 = 0 then accZero else accAt0 V c n (Nat.lt_of_succ_lt hn)) from rfl, if_pos h]
      refine holds_step (Qa V c) (Ka V c) (bOf ⟨n + 1, hn⟩) ((n + 1) % 16) _ _ _ ?_ (blk_q V c ⟨n + 1, hn⟩) (blk_k V c ⟨n + 1, hn⟩)
      rw [h]
      exact holds_zero _ _ _
    · rw [show accAt0 V c (n + 1) hn = accStep (qBlk V c ⟨n + 1, hn⟩) (kBlk V c ⟨n + 1, hn⟩)
          (if (n + 1) % 16 = 0 then accZero else accAt0 V c n (Nat.lt_of_succ_lt hn)) from rfl, if_neg h]
      refine holds_step (Qa V c) (Ka V c) (bOf ⟨n + 1, hn⟩) ((n + 1) % 16) _ _ _ ?_ (blk_q V c ⟨n + 1, hn⟩) (blk_k V c ⟨n + 1, hn⟩)
      have hprev := ih (Nat.lt_of_succ_lt hn)
      have hb : bOf ⟨n, Nat.lt_of_succ_lt hn⟩ = bOf ⟨n + 1, hn⟩ := Fin.ext (show n / 16 = (n + 1) / 16 by omega)
      have hk : n % 16 + 1 = (n + 1) % 16 := by omega
      rw [hb, hk] at hprev
      exact hprev

/-! ## The accumulators after each point -/

theorem acc_qk (c : Dev nD) (t : Fin cfg0.N) (mm nn : Fin 512) :
    (accAt0 V c t.val t.isLt).1 (ix2 mm nn) = Cert.Spec.qkP (Qa V c) (Ka V c) (bOf t) nn mm (t.val % 16 + 1) :=
  (acc_holds V c t.val t.isLt).1 mm nn

theorem acc_qq (c : Dev nD) (t : Fin cfg0.N) (nn : Fin 512) :
    (accAt0 V c t.val t.isLt).2.1 (ix2 nn (0 : Fin 1)) = Cert.Spec.sqP (Qa V c) (bOf t) nn (t.val % 16 + 1) :=
  (acc_holds V c t.val t.isLt).2.1 nn

theorem acc_kk (c : Dev nD) (t : Fin cfg0.N) (mm : Fin 512) :
    (accAt0 V c t.val t.isLt).2.2 (ix2 mm (0 : Fin 1)) = Cert.Spec.sqP (Ka V c) (bOf t) mm (t.val % 16 + 1) :=
  (acc_holds V c t.val t.isLt).2.2 mm

end Cert.KernelIdeal.HandValue

end
-- ==== Proof.Out0Value.lean ====
/-
  What the similarity kernel leaves in its output array: the weights.

  The output block of batch entry b is stored at the last tile only, from the accumulators after that tile, which hold the
  whole contraction; entry m is  sum_n exp (log (qk[m, n] + eps) - log (kk[m] + qq[n] - qk[m, n] + eps)), the weight of key
  token m. The two write-backs (points 15 and 31) cover the array, block b being rows of batch entry b.
-/
import proofs.«145453_j21732534517872_1_alg».proof.Proof.AccValue
import proofs.«145453_j21732534517872_1_alg».proof.Proof.Spec
import proofs.«145453_j21732534517872_1_alg».proof.Proof.LibRowReduce
import proofs.«145453_j21732534517872_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The stored block at a row -/

/-- The block the last tile stores, at row m: the layout operations read at the index. The two column vectors are
    spread over the square, kk along the rows and qq (transposed to a row) along the columns; the row sum runs over n. -/
theorem outOf_apply (a : Acc Ideal) (mm : Fin 512) :
    outOf a (ix3 (0 : Fin 1) mm (0 : Fin 1))
      = ∑ nn : Fin 512, Ideal.exp (Ideal.log (a.1 (ix2 mm nn) + Cert.Spec.eps)
          - Ideal.log (a.2.2 (ix2 mm (0 : Fin 1)) + a.2.1 (ix2 nn (0 : Fin 1)) - a.1 (ix2 mm nn) + Cert.Spec.eps)) := by
  unfold outOf k0_pay2
  refine (shapeCast_ab_1ab_apply _ _ (0 : Fin 1) mm (0 : Fin 1)).trans ?_
  refine (Cert.LibKeepdims.shapeCast_a_a1_apply _ _ mm (0 : Fin 1)).trans ?_
  refine (Cert.LibRowReduce.multiReduction_add_row _ _ _ _ _ mm).trans ?_
  refine Finset.sum_congr rfl fun nn _ => ?_
  have e1 : broadcastTo S512x512 a.2.2 broadcasts_S512x1_S512x512 (ix2 mm nn) = a.2.2 (ix2 mm (0 : Fin 1)) :=
    Cert.LibKeepdims.broadcastTo_a1_ab_apply _ _ mm nn
  have e2 : broadcastTo S512x512 (transpose S1x512 [1, 0] a.2.1 transposes_S512x1_p1_0_S1x512) broadcasts_S1x512_S512x512 (ix2 mm nn)
      = a.2.1 (ix2 nn (0 : Fin 1)) :=
    (broadcastTo_1b_ab_apply _ _ mm nn).trans (transpose_ix2_apply _ _ (0 : Fin 1) nn)
  unfold Cert.Spec.eps
  show Ideal.exp (Ideal.log (a.1 (ix2 mm nn) + (Ideal.ofBits .f32 0x3727C5AC#32 : EReal))
      - Ideal.log (broadcastTo S512x512 a.2.2 broadcasts_S512x1_S512x512 (ix2 mm nn)
          + broadcastTo S512x512 (transpose S1x512 [1, 0] a.2.1 transposes_S512x1_p1_0_S1x512) broadcasts_S1x512_S512x512 (ix2 mm nn)
          - a.1 (ix2 mm nn) + (Ideal.ofBits .f32 0x3727C5AC#32 : EReal))) = _
  rw [e1, e2]

/-- At the last tile of batch entry b the accumulators hold the whole contraction (16 tiles), so row m of the stored
    block is the weight of key token m: the sum over the query tokens of the similarities. -/
theorem stored_row (c : Dev nD) (t : Fin cfg0.N) (ht : t.val % 16 = 15) (u : Fin 1) (mm : Fin 512) (u' : Fin 1) :
    outOf (accAt0 V c t.val t.isLt) (ix3 u mm u') = Cert.Spec.attnS (Qa V c) (Ka V c) (bOf t) mm := by
  obtain rfl : u = 0 := Subsingleton.elim _ _
  obtain rfl : u' = 0 := Subsingleton.elim _ _
  rw [outOf_apply]
  unfold Cert.Spec.attnS
  refine Finset.sum_congr rfl fun nn _ => ?_
  rw [acc_qk V c t mm nn, acc_qq V c t nn, acc_kk V c t mm, ht]
  exact Cert.Spec.sim_of_acc (Qa V c) (Ka V c) (bOf t) nn mm

/-! ## From the stored blocks to the array -/

/-- The output's index map, decided over the grid: the block of point t is block (t / 16, 0, 0). -/
theorem out_index : ∀ t : Fin cfg0.N, win0_2.index t (0 : Fin 3) = t.val / 16 ∧ win0_2.index t (1 : Fin 3) = 0 ∧ win0_2.index t (2 : Fin 3) = 0 :=
  (by decide +kernel : ∀ t : Fin grid0.N, _)

/-- What a storing point writes back is its block of the array of weights: the block of point t is the rows of batch
    entry t / 16, each coordinate being block index times block size plus the coordinate inside the block. -/
theorem flushed_eq (c : Dev nD) (t : Fin cfg0.N) (hf : (cfg0.win 2).flush t = true) :
    (dat0 V c).flushed 2 t = ((cfg0.win 2).blk t).view.read (Elt Ideal) (Cert.Spec.attnArr (Qa V c) (Ka V c)) := by
  have ht : t.val % 16 = 15 := (flush0_2 t).mp hf
  show (cfg0.win 2).cut (grid0.coords t) ((dat0 V c).after 2 t) = _
  rw [after0_2]
  refine funext fun (j : S1x512x1.Idx) => ?_
  obtain ⟨u, mm, u', rfl⟩ : ∃ (u : Fin 1) (mm : Fin 512) (u' : Fin 1), j = ix3 u mm u' := ⟨j 0, j 1, j 2, eq_ix3 j⟩
  refine (stored_row V c t ht u mm u').trans ?_
  have hi : ((cfg0.win 2).blk t).view.emb (ix3 u mm u') = (ix3 (bOf t) mm (0 : Fin 1) : Cert.Spec.T1.Idx) := by
    obtain ⟨e0, e1, e2⟩ := out_index t
    funext a; apply Fin.ext
    match a with
    | ⟨0, _⟩ => show win0_2.index t (0 : Fin 3) * 1 + 1 * u.val = t.val / 16; have := u.isLt; omega
    | ⟨1, _⟩ => show win0_2.index t (1 : Fin 3) * 512 + 1 * mm.val = mm.val; omega
    | ⟨2, _⟩ => show win0_2.index t (2 : Fin 3) * 1 + 1 * u'.val = 0; have := u'.isLt; omega
  show _ = Cert.Spec.attnArr (Qa V c) (Ka V c) (((cfg0.win 2).blk t).view.emb (ix3 u mm u'))
  rw [hi]
  rfl

/-- The last tile of batch entry b: point 16 b + 15. -/
def lastOf (b : Fin 2) : Fin cfg0.N :=
  ⟨16 * b.val + 15, by have := b.isLt; have hN : grid0.N = 32 := N_0; show 16 * b.val + 15 < grid0.N; omega⟩

/-- Row (b, m, 0) of the array lies in the block the last tile of batch entry b writes back. -/
theorem covered (i : S2x512x1.Idx) :
    ∃ t : Fin cfg0.N, (cfg0.win 2).flush t = true ∧ i ∈ ((cfg0.win 2).blk t).view.set := by
  obtain ⟨b, mm, u, rfl⟩ : ∃ (b : Fin 2) (mm : Fin 512) (u : Fin 1), i = ix3 b mm u := ⟨i 0, i 1, i 2, eq_ix3 i⟩
  have hv : (lastOf b).val = 16 * b.val + 15 := rfl
  refine ⟨lastOf b, (flush0_2 _).mpr (by rw [hv]; omega), ?_⟩
  obtain ⟨e0, e1, e2⟩ := out_index (lastOf b)
  rw [hv] at e0
  have hb := b.isLt
  have hm := mm.isLt
  have hu := u.isLt
  show ix3 b mm u ∈ ((View.whole main_v9).slice (win0_2.rect (lastOf b))).set
  rw [View.set_slice_whole, Rect.mem_set_unit]
  intro a
  match a with
  | ⟨0, _⟩ => show win0_2.index (lastOf b) (0 : Fin 3) * 1 ≤ b.val ∧ b.val < win0_2.index (lastOf b) (0 : Fin 3) * 1 + 1; omega
  | ⟨1, _⟩ => show win0_2.index (lastOf b) (1 : Fin 3) * 512 ≤ mm.val ∧ mm.val < win0_2.index (lastOf b) (1 : Fin 3) * 512 + 512; omega
  | ⟨2, _⟩ => show win0_2.index (lastOf b) (2 : Fin 3) * 1 ≤ u.val ∧ u.val < win0_2.index (lastOf b) (2 : Fin 3) * 1 + 1; omega

/-- The two storing points (15 and 31) cover the array, so it ends holding the weights. -/
theorem final_arr (c : Dev nD) : (dat0 V c).arrAt 2 cfg0.N = Cert.Spec.attnArr (Qa V c) (Ka V c) :=
  (dat0 V c).arrAt_eq_of_cover 2 (Cert.Spec.attnArr (Qa V c) (Ka V c)) (flushed_eq V c) fun i => covered i

theorem final9 (c : Dev nD) (b : Fin 2) (mm : Fin 512) :
    ((dat0 V c).arrAt 2 cfg0.N : Cert.Spec.T1.Idx → EReal) (ix3 b mm (0 : Fin 1)) = Cert.Spec.attnS (Qa V c) (Ka V c) b mm := by
  rw [final_arr V c]
  rfl

end Cert.KernelIdeal.HandValue

end
-- ==== Proof.Out1Value.lean ====
/-
  What the combining kernel leaves in its output array: each value row scaled by its token's weight.

  Point (b, d) multiplies the [512, 1] column of weights of batch entry b, spread along the lanes, with the
  [512, 2048] tile d of the values, and writes the tile back; the 32 tiles cover the [2, 512, 32768] array.
-/
import proofs.«145453_j21732534517872_1_alg».proof.Proof.R1
import proofs.«145453_j21732534517872_1_alg».proof.Proof.Spec
import proofs.«145453_j21732534517872_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue.Out1
open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The body's product at an index -/

/-- The body's result at row `r`, lane `j`: the weight of row `r` times the value at `(r, j)`. The two casts drop
    and restore the leading unit axis, and the broadcast spreads the weight column along the lanes. -/
theorem pay_apply (v0 : Vec Ideal S1x512x1 .f32) (v2 : Vec Ideal S1x512x2048 .f32) (r : Fin 512) (j : Fin 2048) :
    (k1_pay1 (F := Ideal) v0 v2 : S1x512x2048.Idx → EReal) (ix3 (0 : Fin 1) r j)
      = (v0 : S1x512x1.Idx → EReal) (ix3 (0 : Fin 1) r (0 : Fin 1)) * (v2 : S1x512x2048.Idx → EReal) (ix3 (0 : Fin 1) r j) := by
  unfold k1_pay1
  refine (shapeCast_ab_1ab_apply _ _ (0 : Fin 1) r j).trans ?_
  refine (mulf_apply _ _ _).trans ?_
  rw [Cert.LibKeepdims.broadcastTo_a1_ab_apply, shapeCast_1ab_ab_apply, shapeCast_1ab_ab_apply]

/-! ## The index maps, decided over the grid -/

/-- Point `t` is (batch entry `t / 16`, tile `t % 16`): the weight block is the batch entry's only one, the value
    and output blocks are tile `t % 16` of that entry. -/
theorem idx_maps : ∀ t : Fin cfg1.N,
    win1_0.index t (0 : Fin 3) = t.val / 16 ∧ win1_0.index t (1 : Fin 3) = 0 ∧ win1_0.index t (2 : Fin 3) = 0
    ∧ win1_1.index t (0 : Fin 3) = t.val / 16 ∧ win1_1.index t (1 : Fin 3) = 0 ∧ win1_1.index t (2 : Fin 3) = t.val % 16
    ∧ win1_2.index t (0 : Fin 3) = t.val / 16 ∧ win1_2.index t (1 : Fin 3) = 0 ∧ win1_2.index t (2 : Fin 3) = t.val % 16 :=
  (by decide +kernel : ∀ t : Fin grid1.N, _)

/-! ## The blocks, read off their arrays -/

/-- The weight block at point `t` is the weight column of batch entry `t / 16`. -/
theorem wblk_apply (c : Dev nD) (t : Fin cfg1.N) (x : S1x512x1.Idx) (k : S2x512x1.Idx)
    (h0 : (k 0).val = t.val / 16) (h1 : (k 1).val = (x 1).val) (h2 : (k 2).val = (x 2).val) :
    (iblk1 V c 0 t : S1x512x1.Idx → EReal) x = (V c main_v9 : S2x512x1.Idx → EReal) k := by
  obtain ⟨e0, e1, e2, -⟩ := idx_maps t
  have hx0 : (x 0).val < 1 := (x 0).isLt
  unfold iblk1
  rw [View.read_apply]
  show V c main_v9 _ = V c main_v9 _
  congr 1
  funext a
  apply Fin.ext
  match a with
  | ⟨0, _⟩ => show win1_0.index t (0 : Fin 3) * 1 + 1 * (x 0).val = (k 0).val; rw [e0, h0]; omega
  | ⟨1, _⟩ => show win1_0.index t (1 : Fin 3) * 512 + 1 * (x 1).val = (k 1).val; rw [e1, h1]; omega
  | ⟨2, _⟩ => show win1_0.index t (2 : Fin 3) * 1 + 1 * (x 2).val = (k 2).val; rw [e2, h2]; omega

/-- The value block at point `t` is tile `t % 16` (2048 lanes) of batch entry `t / 16`. -/
theorem vblk_apply (c : Dev nD) (t : Fin cfg1.N) (x : S1x512x2048.Idx) (k : S2x512x32768.Idx)
    (h0 : (k 0).val = t.val / 16) (h1 : (k 1).val = (x 1).val) (h2 : (k 2).val = 2048 * (t.val % 16) + (x 2).val) :
    (iblk1 V c 1 t : S1x512x2048.Idx → EReal) x = (V c main_v8 : S2x512x32768.Idx → EReal) k := by
  obtain ⟨-, -, -, e0, e1, e2, -⟩ := idx_maps t
  have hx0 : (x 0).val < 1 := (x 0).isLt
  unfold iblk1
  rw [View.read_apply]
  show V c main_v8 _ = V c main_v8 _
  congr 1
  funext a
  apply Fin.ext
  match a with
  | ⟨0, _⟩ => show win1_1.index t (0 : Fin 3) * 1 + 1 * (x 0).val = (k 0).val; rw [e0, h0]; omega
  | ⟨1, _⟩ => show win1_1.index t (1 : Fin 3) * 512 + 1 * (x 1).val = (k 1).val; rw [e1, h1]; omega
  | ⟨2, _⟩ => show win1_1.index t (2 : Fin 3) * 2048 + 1 * (x 2).val = (k 2).val; rw [e2, h2]; omega

/-! ## What a point writes back -/

/-- The array the kernel computes: every value scaled by the weight of its batch entry and token. -/
abbrev scaled (W : S2x512x1.Idx → EReal) (X : S2x512x32768.Idx → EReal) : S2x512x32768.Idx → EReal :=
  fun i => W (ix3 (i 0) (i 1) (0 : Fin 1)) * X i

/-- Point `t` writes back its block of `scaled` of the two arrays as the region finds them. -/
theorem flushed_eq (c : Dev nD) (t : Fin cfg1.N) :
    (dat1 V c).flushed 2 t = ((cfg1.win 2).blk t).view.read (Elt Ideal) (scaled (V c main_v9) (V c main_v8)) := by
  show (cfg1.win 2).cut (grid1.coords t) ((dat1 V c).after 2 t) = _
  rw [after1_2]
  funext y
  obtain ⟨u, r, j, rfl⟩ : ∃ (u : Fin 1) (r : Fin 512) (j : Fin 2048), y = ix3 u r j := ⟨y 0, y 1, y 2, eq_ix3 y⟩
  obtain rfl : u = 0 := Subsingleton.elim _ _
  obtain ⟨-, -, -, -, -, -, e0, e1, e2⟩ := idx_maps t
  rw [View.read_apply]
  show (k1_pay1 (F := Ideal) (iblk1 V c 0 t) (iblk1 V c 1 t) : S1x512x2048.Idx → EReal) (ix3 (0 : Fin 1) r j)
    = scaled (V c main_v9) (V c main_v8) (((cfg1.win 2).blk t).view.emb (ix3 (0 : Fin 1) r j))
  refine (pay_apply (iblk1 V c 0 t) (iblk1 V c 1 t) r j).trans ?_
  refine congrArg₂ (· * ·) (wblk_apply V c t _ _ ?_ ?_ ?_) (vblk_apply V c t _ _ ?_ ?_ ?_)
  · show win1_2.index t (0 : Fin 3) * 1 + 1 * (0 : ℕ) = t.val / 16; rw [e0]; omega
  · show win1_2.index t (1 : Fin 3) * 512 + 1 * r.val = r.val; rw [e1]; omega
  · rfl
  · show win1_2.index t (0 : Fin 3) * 1 + 1 * (0 : ℕ) = t.val / 16; rw [e0]; omega
  · show win1_2.index t (1 : Fin 3) * 512 + 1 * r.val = r.val; rw [e1]; omega
  · show win1_2.index t (2 : Fin 3) * 2048 + 1 * j.val = 2048 * (t.val % 16) + j.val; rw [e2]; omega

/-! ## The 32 tiles cover the array -/

/-- An index is in point `t`'s output block iff each coordinate is in the block's range on its axis. -/
theorem mem_blk (t : Fin cfg1.N) (i : S2x512x32768.Idx) :
    i ∈ ((cfg1.win 2).blk t).view.set ↔ ∀ a : Fin 3, win1_2.index t a * S1x512x2048.size a ≤ (i a).val
      ∧ (i a).val < win1_2.index t a * S1x512x2048.size a + S1x512x2048.size a := by
  show i ∈ ((View.whole main_v10).slice (win1_2.rect t)).set ↔ _
  rw [View.set_slice_whole, Rect.mem_set_unit]
  exact Iff.rfl

/-- Index `(b, m, d)` is written by point `16 b + d / 2048`. -/
theorem cover (i : S2x512x32768.Idx) :
    ∃ t : Fin cfg1.N, (cfg1.win 2).flush t = true ∧ i ∈ ((cfg1.win 2).blk t).view.set := by
  have h0 : (i 0).val < 2 := (i 0).isLt
  have h1 : (i 1).val < 512 := (i 1).isLt
  have h2 : (i 2).val < 32768 := (i 2).isLt
  have hN : cfg1.N = 32 := N_1
  obtain ⟨t, ht⟩ : ∃ t : Fin cfg1.N, t.val = 16 * (i 0).val + (i 2).val / 2048 := ⟨⟨_, by rw [hN]; omega⟩, rfl⟩
  obtain ⟨-, -, -, -, -, -, e0, e1, e2⟩ := idx_maps t
  refine ⟨t, flush1_2 t, ?_⟩
  rw [mem_blk]
  intro a
  match a with
  | ⟨0, _⟩ =>
    show win1_2.index t (0 : Fin 3) * 1 ≤ (i 0).val ∧ (i 0).val < win1_2.index t (0 : Fin 3) * 1 + 1
    rw [e0, ht]; omega
  | ⟨1, _⟩ =>
    show win1_2.index t (1 : Fin 3) * 512 ≤ (i 1).val ∧ (i 1).val < win1_2.index t (1 : Fin 3) * 512 + 512
    rw [e1]; omega
  | ⟨2, _⟩ =>
    show win1_2.index t (2 : Fin 3) * 2048 ≤ (i 2).val ∧ (i 2).val < win1_2.index t (2 : Fin 3) * 2048 + 2048
    rw [e2, ht]; omega

/-! ## The array after the run -/

/-- The output array after the run is the product array of the weights and the values as the region finds them. -/
theorem out_eq (c : Dev nD) : (dat1 V c).arrAt 2 cfg1.N = scaled (V c main_v9) (V c main_v8) :=
  (dat1 V c).arrAt_eq_of_cover 2 (scaled (V c main_v9) (V c main_v8)) (fun t _ => flushed_eq V c t) cover

/-- The output array at `(b, m, d)`, over any names `W`, `X` of the weight and value arrays as the region finds them. -/
theorem final10_of (c : Dev nD) (W : Cert.Spec.T1.Idx → EReal) (X : Cert.Spec.A3)
    (hW : (V c main_v9 : Cert.Spec.T1.Idx → EReal) = W) (hX : (V c main_v8 : Cert.Spec.A3) = X)
    (b : Fin 2) (mm : Fin 512) (d : Fin 32768) :
    ((dat1 V c).arrAt 2 cfg1.N : Cert.Spec.T3.Idx → EReal) (ix3 b mm d) = W (ix3 b mm (0 : Fin 1)) * X (ix3 b mm d) := by
  subst hW; subst hX
  exact congrFun (out_eq V c) (ix3 b mm d)

/-- The output array at `(b, m, d)`: the weight of batch entry `b`, token `m`, times the value there. -/
theorem final10 (c : Dev nD) (b : Fin 2) (mm : Fin 512) (d : Fin 32768) :
    ((dat1 V c).arrAt 2 cfg1.N : Cert.Spec.T3.Idx → EReal) (ix3 b mm d)
      = @HMul.hMul EReal EReal EReal _ ((V c main_v9 : Cert.Spec.T1.Idx → EReal) (ix3 b mm (0 : Fin 1))) ((V c main_v8 : Cert.Spec.A3) (ix3 b mm d)) :=
  final10_of V c _ _ rfl rfl b mm d

end Cert.KernelIdeal.HandValue.Out1
end
-- ==== Proof.RefValue.lean ====
/-
  The reference on the flattened layout is the specification: read one operation at a time, its product of the
  broadcast weights with the values is, at (b, m, d), the sum over the query tokens of the similarity — the contraction done
  at once, the squared norms added query first — times the value.
-/
import proofs.«145453_j21732534517872_1_alg».proof.Proof.Gen.ReferenceIdeal.Run
import proofs.«145453_j21732534517872_1_alg».proof.Proof.ReadP
import proofs.«145453_j21732534517872_1_alg».proof.Proof.Spec

set_option maxRecDepth 16384

noncomputable section

open scoped BigOperators

namespace Cert.ReferenceIdeal.RefValue

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen

open Cert.ReferenceIdeal.ReadP

/-- The type of the three arguments. -/
abbrev Arg : Type := (⟨S2x8x128x128x128, .f32⟩ : BufTy).Contents (Elt Ideal)

/-! ## The composed index maps at explicit coordinates -/

theorem lidx12_ix (b : Fin 2) (n m : Fin 512) (k : Fin 32768) : lidx_main_v12 (ix3 b n m) k = ix3 b n k :=
  funext fun a => Fin.ext (by match a with | ⟨0, _⟩ => rfl | ⟨1, _⟩ => rfl | ⟨2, _⟩ => rfl)

theorem ridx12_ix (b : Fin 2) (n m : Fin 512) (k : Fin 32768) : ridx_main_v12 (ix3 b n m) k = ix3 b m k :=
  funext fun a => Fin.ext (by match a with | ⟨0, _⟩ => rfl | ⟨1, _⟩ => rfl | ⟨2, _⟩ => rfl)

theorem idx14_ix (b : Fin 2) (n : Fin 512) (k : Fin 32768) : idx_main_v14 (ix2 b n) k = ix3 b n k :=
  funext fun a => Fin.ext (by match a with | ⟨0, _⟩ => rfl | ⟨1, _⟩ => rfl | ⟨2, _⟩ => rfl)

theorem idx16_ix (b : Fin 2) (n : Fin 512) (k : Fin 32768) : idx_main_v16 (ix2 b n) k = ix3 b n k :=
  funext fun a => Fin.ext (by match a with | ⟨0, _⟩ => rfl | ⟨1, _⟩ => rfl | ⟨2, _⟩ => rfl)

theorem idx17_19_ix (b : Fin 2) (n m : Fin 512) : idx_main_v17 (idx_main_v19 (ix3 b n m)) = ix2 b n :=
  funext fun a => Fin.ext (by match a with | ⟨0, _⟩ => rfl | ⟨1, _⟩ => rfl)

theorem idx18_20_ix (b : Fin 2) (n m : Fin 512) : idx_main_v18 (idx_main_v20 (ix3 b n m)) = ix2 b m :=
  funext fun a => Fin.ext (by match a with | ⟨0, _⟩ => rfl | ⟨1, _⟩ => rfl)

theorem idx31_ix (b : Fin 2) (m : Fin 512) (k : Fin 512) : idx_main_v31 (ix2 b m) k = ix3 b k m :=
  funext fun a => Fin.ext (by match a with | ⟨0, _⟩ => rfl | ⟨1, _⟩ => rfl | ⟨2, _⟩ => rfl)

theorem idx33_34_ix (b : Fin 2) (m : Fin 512) (d : Fin 32768) : idx_main_v33 (idx_main_v34 (ix3 b m d)) = ix2 b m :=
  funext fun a => Fin.ext (by match a with | ⟨0, _⟩ => rfl | ⟨1, _⟩ => rfl)

/-! ## The scaled inputs -/

theorem v8_at (x0 : Arg) (i : S2x512x32768.Idx) :
    val_main_v8 (F := Ideal) x0 i = val_main_v6 (F := Ideal) x0 i * Cert.Spec.sc := by
  rw [val_main_v8_apply, val_main_v7_apply, val_main_cst_apply]
  rfl

theorem v11_at (x1 : Arg) (i : S2x512x32768.Idx) :
    val_main_v11 (F := Ideal) x1 i = val_main_v9 (F := Ideal) x1 i * Cert.Spec.sc := by
  rw [val_main_v11_apply, val_main_v10_apply, val_main_cst_0_apply]
  rfl

/-! ## The contraction and the two squared norms -/

theorem qk_at (x0 x1 : Arg) (b : Fin 2) (n m : Fin 512) :
    val_main_v12 (F := Ideal) x0 x1 (ix3 b n m)
      = Cert.Spec.qkS (val_main_v6 (F := Ideal) x0) (val_main_v9 (F := Ideal) x1) b n m := by
  rw [val_main_v12_apply]
  unfold Cert.Spec.qkS
  refine Finset.sum_congr rfl fun k _ => ?_
  rw [lidx12_ix, ridx12_ix, v8_at, v11_at]

theorem qq_at (x0 : Arg) (b : Fin 2) (n : Fin 512) :
    val_main_v14 (F := Ideal) x0 (ix2 b n) = Cert.Spec.sqS (val_main_v6 (F := Ideal) x0) b n := by
  rw [val_main_v14_apply, val_main_cst_1_apply, Ideal.ofBits_def, Ideal.ofBits_zero_f32, zero_add]
  unfold Cert.Spec.sqS
  refine Finset.sum_congr rfl fun k _ => ?_
  rw [idx14_ix, val_main_v13_apply, v8_at]
  rfl

theorem kk_at (x1 : Arg) (b : Fin 2) (m : Fin 512) :
    val_main_v16 (F := Ideal) x1 (ix2 b m) = Cert.Spec.sqS (val_main_v9 (F := Ideal) x1) b m := by
  rw [val_main_v16_apply, val_main_cst_2_apply, Ideal.ofBits_def, Ideal.ofBits_zero_f32, zero_add]
  unfold Cert.Spec.sqS
  refine Finset.sum_congr rfl fun k _ => ?_
  rw [idx16_ix, val_main_v15_apply, v11_at]
  rfl

/-! ## The similarity, the weights and the result -/

theorem sim_at (x0 x1 : Arg) (b : Fin 2) (n m : Fin 512) :
    val_main_v30 (F := Ideal) x0 x1 (ix3 b n m)
      = Cert.Spec.simS (val_main_v6 (F := Ideal) x0) (val_main_v9 (F := Ideal) x1) b n m := by
  rw [val_main_v30_apply, val_main_v29_apply, val_main_v27_apply, val_main_v28_apply, val_main_v26_apply,
    val_main_v24_apply, val_main_v22_apply, val_main_v21_apply, val_main_v25_apply, val_main_v23_apply,
    val_main_cst_4_apply, val_main_cst_3_apply, val_main_v19_apply, val_main_v17_apply, val_main_v20_apply,
    val_main_v18_apply, idx17_19_ix, idx18_20_ix, qq_at, kk_at, qk_at]
  unfold Cert.Spec.simS Cert.Spec.eps
  simp only [Ideal.hostUnary_exp_def, Ideal.hostUnary_log_def, Ideal.addf_def, Ideal.subf_def, Ideal.ofBits_def]

theorem attn_at (x0 x1 : Arg) (b : Fin 2) (m : Fin 512) :
    val_main_v31 (F := Ideal) x0 x1 (ix2 b m)
      = Cert.Spec.attnS (val_main_v6 (F := Ideal) x0) (val_main_v9 (F := Ideal) x1) b m := by
  rw [val_main_v31_apply, val_main_cst_5_apply, Ideal.ofBits_def, Ideal.ofBits_zero_f32, zero_add]
  unfold Cert.Spec.attnS
  refine Finset.sum_congr rfl fun k _ => ?_
  rw [idx31_ix, sim_at]

theorem ref_flat (x0 x1 x2 : (⟨S2x8x128x128x128, .f32⟩ : BufTy).Contents (Elt Ideal)) (b : Fin 2) (mm : Fin 512) (d : Fin 32768) :
    (Cert.ReferenceIdeal.ReadP.val_main_v35 x0 x1 x2 : Cert.Spec.A3) (ix3 b mm d)
      = Cert.Spec.outS (Cert.ReferenceIdeal.ReadP.val_main_v6 x0) (Cert.ReferenceIdeal.ReadP.val_main_v9 x1) (Cert.ReferenceIdeal.ReadP.val_main_v32 x2) (ix3 b mm d) := by
  rw [Cert.Spec.outS_apply, val_main_v35_apply, val_main_v34_apply, val_main_v33_apply, idx33_34_ix, attn_at]
  rfl

end Cert.ReferenceIdeal.RefValue

end
-- ==== Proof.Algebraic.lean ====
/-
  The two idealized programs end with the same result.

  Both re-lay each input [2, 8, 128, 128, 128] as [2, 512, 32768] (512 patch tokens of 32768 entries per batch entry) by
  the same three layout operations, and lay the result back by the same three; in between both compute, on that layout,
  out[b, m, d] = attn[b, m] * V[b, m, d] with attn the specification's weights. The accumulating program's two kernels leave
  exactly that in their output arrays (the weights, then the weighted values); the other program's operations, read one
  at a time, compose to the same function. The layout operations are carried as two opaque functions and never opened.
-/
import proofs.«145453_j21732534517872_1_alg».proof.Proof.Run
import proofs.«145453_j21732534517872_1_alg».proof.Proof.Out0Value
import proofs.«145453_j21732534517872_1_alg».proof.Proof.Out1Value
import proofs.«145453_j21732534517872_1_alg».proof.Proof.RefValue
import proofs.«145453_j21732534517872_1_alg».proof.Defs
import proofs.«145453_j21732534517872_1_alg».proof.Proof.Gen.Pre_finite_inputs
import Idealize.ShloMosaic.Lib.StableHlo.Run

set_option maxRecDepth 16384

noncomputable section

open scoped BigOperators

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Idealize.ShloMosaic.StableHlo

variable (m : (ℓ : Loc nD τ sig) → Buf (Elt Ideal) ℓ) (ρ : Dev nD → PrngReg)

/-- An input re-laid as [2, 512, 32768]: patch tokens by their contents. -/
def patch (x : (⟨S2x8x128x128x128, .f32⟩ : BufTy).Contents (Elt Ideal)) : Cert.Spec.A3 :=
  shapeCast S2x512x32768 (transpose S2x8x4x4x4x32x32x32 [0, 1, 2, 4, 6, 3, 5, 7] (shapeCast S2x8x4x32x4x32x4x32 x shapeCasts_S2x8x128x128x128_S2x8x4x32x4x32x4x32) transposes_S2x8x4x32x4x32x4x32_S2x8x4x4x4x32x32x32_0_1_2_4_6_3_5_7) shapeCasts_S2x8x4x4x4x32x32x32_S2x512x32768

/-- The result laid back out as [2, 8, 128, 128, 128]. -/
def unpatch (y : Cert.Spec.A3) : (⟨S2x8x128x128x128, .f32⟩ : BufTy).Contents (Elt Ideal) :=
  shapeCast S2x8x128x128x128 (transpose S2x8x4x32x4x32x4x32 [0, 1, 2, 5, 3, 6, 4, 7] (shapeCast S2x8x4x4x4x32x32x32 y shapeCasts_S2x512x32768_S2x8x4x4x4x32x32x32) transposes_S2x8x4x4x4x32x32x32_S2x8x4x32x4x32x4x32_0_1_2_5_3_6_4_7) shapeCasts_S2x8x4x32x4x32x4x32_S2x8x128x128x128

/-- The specification at the launch memory's three arguments. -/
def specOut (c : Dev nD) : Cert.Spec.A3 :=
  Cert.Spec.outS (patch (m ((c : Thread nD τ).loc main_arg0))) (patch (m ((c : Thread nD τ).loc main_arg1))) (patch (m ((c : Thread nD τ).loc main_arg2)))

/-! ## What the first host stretch leaves in the three arrays the kernels read -/

theorem E0_v6 (c : Dev nD) : (E0 m c main_v6 : Cert.Spec.A3) = patch (m ((c : Thread nD τ).loc main_arg0)) := by
  show StableHlo.after hostOps0 (Gen.V0 m c) (Proc.devRef .tc main_v6) = _
  after_results; rfl
theorem E0_v7 (c : Dev nD) : (E0 m c main_v7 : Cert.Spec.A3) = patch (m ((c : Thread nD τ).loc main_arg1)) := by
  show StableHlo.after hostOps0 (Gen.V0 m c) (Proc.devRef .tc main_v7) = _
  after_results; rfl
theorem E0_v8 (c : Dev nD) : (E0 m c main_v8 : Cert.Spec.A3) = patch (m ((c : Thread nD τ).loc main_arg2)) := by
  show StableHlo.after hostOps0 (Gen.V0 m c) (Proc.devRef .tc main_v8) = _
  after_results; rfl

/-! ## The second kernel's output array is the specification -/

theorem kernel_flat (c : Dev nD) : (Gen.V3 m (outs m) c main_v10 : Cert.Spec.A3) = specOut m c := by
  funext i
  obtain ⟨b, mm, d, rfl⟩ : ∃ (b : Fin 2) (mm : Fin 512) (d : Fin 32768), i = ix3 b mm d := ⟨i 0, i 1, i 2, eq_ix3 i⟩
  have h1 : (Gen.V3 m (outs m) c main_v10 : Cert.Spec.A3) = (dat1 (E1 m) c).arrAt 2 cfg1.N := (hF1 m c 2).symm
  have h2 : (E1 m c main_v9 : Cert.Spec.T1.Idx → EReal) = (dat0 (E0 m) c).arrAt 2 cfg0.N := (hF0 m c 2).symm
  have h3 : (E1 m c main_v8 : Cert.Spec.A3) = E0 m c main_v8 := hrest0 m c main_v8 (by decide)
  -- the first kernel's output array is the array of weights
  have hW : (E1 m c main_v9 : Cert.Spec.T1.Idx → EReal)
      = Cert.Spec.attnArr (patch (m ((c : Thread nD τ).loc main_arg0))) (patch (m ((c : Thread nD τ).loc main_arg1))) := by
    rw [h2]
    funext j
    obtain ⟨b', m', u, rfl⟩ : ∃ (b' : Fin 2) (m' : Fin 512) (u : Fin 1), j = ix3 b' m' u := ⟨j 0, j 1, j 2, eq_ix3 j⟩
    obtain rfl : u = 0 := Subsingleton.elim _ _
    rw [final9 (E0 m) c b' m', Cert.Spec.attnArr_apply]
    unfold Qa Ka
    rw [E0_v6, E0_v7]
  have hX : (E1 m c main_v8 : Cert.Spec.A3) = patch (m ((c : Thread nD τ).loc main_arg2)) := h3.trans (E0_v8 m c)
  rw [h1]
  refine (Out1.final10_of (E1 m) c _ _ hW hX b mm d).trans ?_
  unfold specOut
  rw [Cert.Spec.outS_apply, Cert.Spec.attnArr_apply]

/-- The result array after the last host stretch. -/
theorem kernel_result (c : Dev nD) : Gen.V4 m (outs m) c main_v13 = unpatch (specOut m c) := by
  show StableHlo.after hostOps2 (Gen.V3 m (outs m) c) (Proc.devRef .tc main_v13) = _
  after_results
  rw [show (Gen.V3 m (outs m) c (Proc.devRef .tc main_v10) : Cert.Spec.A3) = specOut m c from kernel_flat m c]
  rfl

end Cert.KernelIdeal.HandValue

open Idealize.ShloMosaic Idealize.ShloMosaic.TcCoe Idealize.ShloMosaic.ValueIdx Idealize.SL.Sem

/-! ## The reference's result is the same function -/

namespace Cert.ReferenceIdeal.RefValue

open Cert.ReferenceIdeal Cert.ReferenceIdeal.Gen Cert.ReferenceIdeal.ReadP

theorem ref_result (x0 x1 x2 : (⟨S2x8x128x128x128, .f32⟩ : BufTy).Contents (Elt Ideal)) :
    val_main_v38 (F := Ideal) x0 x1 x2
      = Cert.KernelIdeal.HandValue.unpatch (Cert.Spec.outS (Cert.KernelIdeal.HandValue.patch x0) (Cert.KernelIdeal.HandValue.patch x1) (Cert.KernelIdeal.HandValue.patch x2)) := by
  have h : (val_main_v35 (F := Ideal) x0 x1 x2 : Cert.Spec.A3) = Cert.Spec.outS (val_main_v6 x0) (val_main_v9 x1) (val_main_v32 x2) := by
    funext i
    obtain ⟨b, mm, d, rfl⟩ : ∃ (b : Fin 2) (mm : Fin 512) (d : Fin 32768), i = ix3 b mm d := ⟨i 0, i 1, i 2, eq_ix3 i⟩
    exact ref_flat x0 x1 x2 b mm d
  unfold val_main_v38 val_main_v37 val_main_v36
  rw [h]
  unfold val_main_v6 val_main_v1 val_main_v0 val_main_v9 val_main_v3 val_main_v2 val_main_v32 val_main_v5 val_main_v4
  rfl

end Cert.ReferenceIdeal.RefValue

/-! ## The claims -/

namespace Cert.Proof.Claims

open Cert.KernelIdeal.HandValue

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the specification laid back out: the accumulating program's by its two kernels' output arrays, the
    other's by its operations read one at a time, from memories that agree on the three arguments. -/
theorem algebraic : Cert.algebraic_KernelIdeal_ReferenceIdeal := by
  intro m ρ m' ρ' _ hagree
  refine ⟨fun c => unpatch (specOut m c), ?_, ?_⟩
  · exact (θ_run Cert.KernelIdeal.defs _ _).mono (fun _ h c => ⟨(h c).1.trans (kernel_result m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.ReadP.val_main_v38_eq, (hagree c).1, (hagree c).2.1, (hagree c).2.2]
    exact Cert.ReferenceIdeal.RefValue.ref_result _ _ _

end Cert.Proof.Claims

end
-- ==== Proof.KR0Defs.lean ====
/-
  Region 0 (the similarity kernel), its proof data at any float instance and any entry contents.

  The grid is (batch b, tile d) with 16 tiles of 2048 along the contracted axis of length 32768; point t is
  (t / 16, t % 16). Three scratch buffers are carried from tile to tile of one batch entry:
    qk[m, n]  — the sum over the tiles seen so far of  sum_j (k[m, j] * s) * (q[n, j] * s),
    qq[n]     — the sum over those tiles of  sum_j (q[n, j] * s)^2,
    kk[m]     — the same for k.
  They are reset to zero at tile 0 and read at tile 15, where the output block of the batch entry is stored:
    out[m] = sum_n exp (log (qk[m, n] + eps) - log (kk[m] + qq[n] - qk[m, n] + eps)).
  `accAt0` is the triple after each point by recursion on the point; the region invariant holds the three
  buffers at that triple between points.
-/
import proofs.«145453_j21732534517872_1_alg».proof.Proof.Gen.Kernel.Launch
import proofs.«145453_j21732534517872_1_alg».proof.Proof.Gen.Kernel.Skeleton
import proofs.«145453_j21732534517872_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the k window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The carried accumulators -/

/-- The three scratch buffers' contents: (qk, qq, kk). -/
abbrev Acc (F : FTy → Type) [FloatOps F] : Type := Vec F S512x512 .f32 × Vec F S512x1 .f32 × Vec F S512x1 .f32

/-- What tile 0 resets them to. -/
def accZero : Acc F := (k0_pay3 (F := F), k0_pay4 (F := F), k0_pay5 (F := F))

/-- One tile's update from the q block `x0` and the k block `x1`. -/
def accStep (x0 x1 : Vec F S1x512x2048 .f32) (a : Acc F) : Acc F :=
  (k0_pay8 x0 x1 a.1, k0_pay1 a.2.1 (k0_pay10 x0), k0_pay9 x1 a.2.2)

/-- The output block the last tile stores, from the accumulators after that tile's update. -/
def outOf (a : Acc F) : Vec F S1x512x1 .f32 := k0_pay2 a.2.1 a.2.2 a.1 a.1

/-- The accumulators after the body at position `n`: the tile's update of zero at tile 0 of a batch entry, of
    what position `n - 1` left otherwise. -/
def accAt0 (c : Dev nD) : (n : ℕ) → n < cfg0.N → Acc F
  | 0, hn => accStep (iblk0 V c 0 ⟨0, hn⟩) (iblk0 V c 1 ⟨0, hn⟩) accZero
  | n + 1, hn => accStep (iblk0 V c 0 ⟨n + 1, hn⟩) (iblk0 V c 1 ⟨n + 1, hn⟩)
      (if (n + 1) % 16 = 0 then accZero else accAt0 c n (Nat.lt_of_succ_lt hn))

/-- What the update at point `t` starts from. -/
def accPrev0 (c : Dev nD) (t : Fin cfg0.N) : Acc F :=
  if t.val % 16 = 0 then accZero else
    if h : t.val = 0 then accZero else accAt0 V c (t.val - 1) (Nat.lt_of_le_of_lt (Nat.sub_le _ _) t.isLt)

theorem accAt0_eq (c : Dev nD) (t : Fin cfg0.N) :
    accAt0 V c t.val t.isLt = accStep (iblk0 V c 0 t) (iblk0 V c 1 t) (accPrev0 V c t) := by
  obtain ⟨n, hn⟩ := t
  cases n with
  | zero => unfold accPrev0; rw [if_pos (Nat.zero_mod _)]; rfl
  | succ n =>
    unfold accPrev0
    by_cases h : (n + 1) % 16 = 0
    · rw [if_pos h]; show accStep _ _ (if (n + 1) % 16 = 0 then accZero else _) = _; rw [if_pos h]
    · rw [if_neg h, dif_neg (Nat.succ_ne_zero n)]; show accStep _ _ (if (n + 1) % 16 = 0 then accZero else _) = _; rw [if_neg h]; rfl

/-! ## The region invariant -/

abbrev scM0 : Memref sig .tc .vmem S512x512 .f32 := Memref.whole cc0_scratch0
abbrev scM1 : Memref sig .tc .vmem S512x1 .f32 := Memref.whole cc0_scratch1
abbrev scM2 : Memref sig .tc .vmem S512x1 .f32 := Memref.whole cc0_scratch2

/-- The scoped buffers this region never touches (the other region's staging buffers), each at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the three scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ (∃ d, owns (c : Thread nD τ) scM2 fullShare d) ∗ restS0 c) ∗ (∃ r, prngReg c r)) := by
  unfold Pipeline.ΦA restS0; rw [scopedRest0_eq]; simp only [scM0, scM1, scM2, owns_whole]; try rfl

/-- The invariant before position `n`: before the first point the class's (every scratch at anything); afterwards the
    three scratch buffers at what position `n - 1` left. -/
def PhiS0 (c : Dev nD) : (n : ℕ) → n ≤ cfg0.N → sProp 𝕄
  | 0, _ => Pipeline.ΦA spec0 c
  | n + 1, hn => iprop((owns (c : Thread nD τ) scM0 fullShare (accAt0 V c n hn).1 ∗ owns (c : Thread nD τ) scM1 fullShare (accAt0 V c n hn).2.1 ∗ owns (c : Thread nD τ) scM2 fullShare (accAt0 V c n hn).2.2 ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn).1 ∗ owns (c : Thread nD τ) scM1 fullShare (accAt0 V c n hn).2.1 ∗ owns (c : Thread nD τ) scM2 fullShare (accAt0 V c n hn).2.2 ∗ restS0 c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)).1 ∗ owns (c : Thread nD τ) scM1 fullShare (accAt0 V c (n - 1) (by omega)).2.1 ∗ owns (c : Thread nD τ) scM2 fullShare (accAt0 V c (n - 1) (by omega)).2.2 ∗ restS0 c) ∗ (∃ r, prngReg c r)) := by
  cases n with
  | zero => exact absurd rfl hz
  | succ n => rfl

/-! ## The proof data -/

/-- Region 0's proof data on core `c`: the arrays as the region finds them; after the body each input's buffer at its
    block, the output's at `outOf` of the accumulators (consulted only at the tile that stores it); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outOf (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outOf (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := rfl

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨H0, H1, H2, Hr⟩, Hg⟩
  isplitr [Hg]
  · isplitl [H0]; · iexists _; iexact H0
    isplitl [H1]; · iexists _; iexact H1
    isplitl [H2]; · iexists _; iexact H2
    iexact Hr
  iexact Hg

end Cert.Kernel.Hand

end
-- ==== Proof.KR0Body.lean ====
/-
  Region 0 (the similarity kernel): the body obligation of its pipeline, at any float instance.

  The body does one of three things, decided by the tile index d = t % 16 of the grid point:
    d = 0        : the three accumulators (qk, qq, kk) are stored zero, then updated with the tile's q and k blocks;
    0 < d < 15   : they are updated from what the previous tile left;
    d = 15       : they are updated, then read back, and the output block of the batch entry is stored from them.
  Every load and store goes through a whole buffer, so a buffer reads back as the payload of the last store into it.
  Each case is a triple over arbitrary memrefs and contents; the obligation at a point picks the case by the
  closed forms of the two conditions and threads the accumulators' contents through the region invariant.
-/
import proofs.«145453_j21732534517872_1_alg».proof.Proof.KR0Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, and where the output window is idle -/

/-- The first conditional's condition (the tile index is 0), as the kernel computes it from the grid coordinates. -/
abbrev cond0_0 (i : grid0.Coords) : Prop := (Scalar.cmpi .ne (Scalar.extui (Scalar.cmpi .eq (BitVec.ofNat 32 (i 1).val) 0#32)) 0#32) = 1#1
/-- It holds exactly at the first tile of a batch entry. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the tile index is 15). -/
abbrev cond0_1 (i : grid0.Coords) : Prop := k0_cond2 i = 1#1
/-- It holds exactly at the last tile of a batch entry. -/
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last tile the output window is idle and not written back; at the last tile it is live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose LAST store went through the whole-shape rectangle at zero offsets reads back as that store's
    payload, whatever was stored before and whatever it held. -/
private theorem read_writes_cons_unit_zero {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The body's three triples -/

set_option maxHeartbeats 1000000 in
/-- The first tile of a batch entry: whatever the three accumulators held, they are reset to zero and then updated, so
    they end at `accStep x0 x1 accZero`; the input buffers and the output's staging buffer are handed back as found. -/
theorem kernel_first (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : cond0_0 i) (hc1 : ¬cond0_1 i)
    (x0 x1 : Vec F S1x512x2048 .f32) (xo : Vec F S1x512x1 .f32)
    (E : Set ℕ) (K : PUnit → sProp 𝕄) :
    iprop(owns (c : Thread nD τ) arg2 fullShare x0 ∗ owns (c : Thread nD τ) arg3 fullShare x1
        ∗ owns (c : Thread nD τ) arg4 fullShare xo
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (accStep x0 x1 (accZero (F := F))).1 ∗ owns (c : Thread nD τ) arg6 fullShare (accStep x0 x1 (accZero (F := F))).2.1
            ∗ owns (c : Thread nD τ) arg7 fullShare (accStep x0 x1 (accZero (F := F))).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    refine (read_writes_cons_unit_zero (S := S512x512) arg5.view _ hz2 _ _ _).trans ?_
    sl_unfold_words
    simp only [View.readAt_eq_ld, harg2.read_unread, harg3.read_unread,
      View.ld_unit_zero (S := S1x512x2048) hz3, View.readCov_unit_zero (S := S512x512) _ hz2]
    rfl
  isplitl [H6]
  · iexists _; isplitr
    swap; · iexact H6
    ipureintro
    refine (read_writes_cons_unit_zero (S := S512x1) arg6.view _ hz2 _ _ _).trans ?_
    sl_unfold_words
    simp only [View.readAt_eq_ld, harg2.read_unread,
      View.ld_unit_zero (S := S1x512x2048) hz3, View.readCov_unit_zero (S := S512x1) _ hz2]
    rfl
  · iexists _; isplitr
    swap; · iexact H7
    ipureintro
    refine (read_writes_cons_unit_zero (S := S512x1) arg7.view _ hz2 _ _ _).trans ?_
    sl_unfold_words
    simp only [View.readAt_eq_ld, harg3.read_unread,
      View.ld_unit_zero (S := S1x512x2048) hz3, View.readCov_unit_zero (S := S512x1) _ hz2]
    rfl

set_option maxHeartbeats 1000000 in
/-- A middle tile (neither the first nor the last of its batch entry): the three accumulators go from `a` to
    `accStep x0 x1 a`; the two input buffers and the output's staging buffer are handed back as found. -/
theorem kernel_mid (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : ¬cond0_0 i) (hc1 : ¬cond0_1 i)
    (x0 x1 : Vec F S1x512x2048 .f32) (xo : Vec F S1x512x1 .f32) (a : Acc F)
    (E : Set ℕ) (K : PUnit → sProp 𝕄) :
    iprop(owns (c : Thread nD τ) arg2 fullShare x0 ∗ owns (c : Thread nD τ) arg3 fullShare x1
        ∗ owns (c : Thread nD τ) arg4 fullShare xo
        ∗ owns (c : Thread nD τ) arg5 fullShare a.1 ∗ owns (c : Thread nD τ) arg6 fullShare a.2.1 ∗ owns (c : Thread nD τ) arg7 fullShare a.2.2
        ∗ (iprop(owns (c : Thread nD τ) arg2 fullShare x0 ∗ owns (c : Thread nD τ) arg3 fullShare x1
            ∗ owns (c : Thread nD τ) arg4 fullShare xo
            ∗ owns (c : Thread nD τ) arg5 fullShare (accStep x0 x1 a).1 ∗ owns (c : Thread nD τ) arg6 fullShare (accStep x0 x1 a).2.1
            ∗ owns (c : Thread nD τ) arg7 fullShare (accStep x0 x1 a).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    refine (read_writes_cons_unit_zero (S := S512x512) arg5.view _ hz2 _ _ _).trans ?_
    simp only [View.readAt_eq_ld, harg2.read_unread, harg3.read_unread, harg5.read_unread,
      View.ld_unit_zero (S := S1x512x2048) hz3, View.ld_unit_zero (S := S512x512) hz2]
    rfl
  isplitl [H6]
  · iexists _; isplitr
    swap; · iexact H6
    ipureintro
    refine (read_writes_cons_unit_zero (S := S512x1) arg6.view _ hz2 _ _ _).trans ?_
    simp only [View.readAt_eq_ld, harg2.read_unread, harg6.read_unread,
      View.ld_unit_zero (S := S1x512x2048) hz3, View.ld_unit_zero (S := S512x1) hz2]
    rfl
  · iexists _; isplitr
    swap; · iexact H7
    ipureintro
    refine (read_writes_cons_unit_zero (S := S512x1) arg7.view _ hz2 _ _ _).trans ?_
    simp only [View.readAt_eq_ld, harg3.read_unread, harg7.read_unread,
      View.ld_unit_zero (S := S1x512x2048) hz3, View.ld_unit_zero (S := S512x1) hz2]
    rfl

set_option maxHeartbeats 1000000 in
/-- The last tile of a batch entry: the accumulators go from `a` to `accStep x0 x1 a`, and the output's staging buffer,
    whatever it held, ends at `outOf` of the updated accumulators. -/
theorem kernel_last (c : Dev nD) (i : grid0.Coords)
    (arg2 : Memref sig .tc .vmem S1x512x2048 .f32) (harg2 : arg2.IsWhole)
    (arg3 : Memref sig .tc .vmem S1x512x2048 .f32) (harg3 : arg3.IsWhole)
    (arg4 : Memref sig .tc .vmem S1x512x1 .f32) (harg4 : arg4.IsWhole)
    (arg5 : Memref sig .tc .vmem S512x512 .f32) (harg5 : arg5.IsWhole)
    (arg6 : Memref sig .tc .vmem S512x1 .f32) (harg6 : arg6.IsWhole)
    (arg7 : Memref sig .tc .vmem S512x1 .f32) (harg7 : arg7.IsWhole)
    (hc0 : ¬cond0_0 i) (hc1 : cond0_1 i)
    (x0 x1 : Vec F S1x512x2048 .f32) (a : Acc F)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare a.1 ∗ owns (c : Thread nD τ) arg6 fullShare a.2.1 ∗ owns (c : Thread nD τ) arg7 fullShare a.2.2
        ∗ (iprop(owns (c : Thread nD τ) arg2 fullShare x0 ∗ owns (c : Thread nD τ) arg3 fullShare x1
            ∗ owns (c : Thread nD τ) arg4 fullShare (outOf (accStep x0 x1 a))
            ∗ owns (c : Thread nD τ) arg5 fullShare (accStep x0 x1 a).1 ∗ owns (c : Thread nD τ) arg6 fullShare (accStep x0 x1 a).2.1
            ∗ owns (c : Thread nD τ) arg7 fullShare (accStep x0 x1 a).2.2) -∗ K ⟨⟩))
      ⊢ wp frame (wpE (defs₀ (F := F)) Variants.none c none) E
          (cc0__qk_attn_kernel i arg2 harg2 arg3 harg3 arg4 harg4 arg5 harg5 arg6 harg6 arg7 harg7) K := by
  simp only [cc0__qk_attn_kernel_eq_skeleton]; unfold cc0__qk_attn_kernel_skel
  simp only [k0_part1_eq_skeleton]; unfold k0_part1_skel
  unfold owns
  iintro ⟨⟨%f0, %hf0, H0⟩, ⟨%f1, %hf1, H1⟩, ⟨%d2, %f2, -, H2⟩, ⟨%f5, %hf5, H5⟩, ⟨%f6, %hf6, H6⟩, ⟨%f7, %hf7, H7⟩, Hk⟩
  obtain rfl := harg2.eq_unread hf0; obtain rfl := harg3.eq_unread hf1
  obtain rfl := harg5.eq_unread hf5; obtain rfl := harg6.eq_unread hf6; obtain rfl := harg7.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_cons_unit_zero (S := S1x512x1) arg4.view _ hz3 _ _ _).trans ?_
    sl_unfold_words
    simp only [View.readAt_eq_ld, harg2.read_unread, harg3.read_unread, harg5.read_unread, harg6.read_unread, harg7.read_unread,
      View.ld_unit_zero (S := S1x512x2048) hz3, View.ld_unit_zero (S := S512x512) hz2, View.ld_unit_zero (S := S512x1) hz2,
      View.readCov_unit_zero (S := S512x512) _ hz2, View.readCov_unit_zero (S := S512x1) _ hz2]
    rfl
  isplitl [H5]
  · iexists _; isplitr
    swap; · iexact H5
    ipureintro
    refine (read_writes_cons_unit_zero (S := S512x512) arg5.view _ hz2 _ _ _).trans ?_
    simp only [View.readAt_eq_ld, harg2.read_unread, harg3.read_unread, harg5.read_unread,
      View.ld_unit_zero (S := S1x512x2048) hz3, View.ld_unit_zero (S := S512x512) hz2]
    rfl
  isplitl [H6]
  · iexists _; isplitr
    swap; · iexact H6
    ipureintro
    refine (read_writes_cons_unit_zero (S := S512x1) arg6.view _ hz2 _ _ _).trans ?_
    simp only [View.readAt_eq_ld, harg2.read_unread, harg6.read_unread,
      View.ld_unit_zero (S := S1x512x2048) hz3, View.ld_unit_zero (S := S512x1) hz2]
    rfl
  · iexists _; isplitr
    swap; · iexact H7
    ipureintro
    refine (read_writes_cons_unit_zero (S := S512x1) arg7.view _ hz2 _ _ _).trans ?_
    simp only [View.readAt_eq_ld, harg3.read_unread, harg7.read_unread,
      View.ld_unit_zero (S := S1x512x2048) hz3, View.ld_unit_zero (S := S512x1) hz2]
    rfl

/-! ## The body obligation -/

variable (V : (c : Dev nD) → (b : Ref sig .tc) → Buf (Elt F) ((c : Thread nD τ).loc b))

/-- Each window's current staging memref at point `t`, as the pipeline passes it to the body, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold their blocks; the tile index decides which of the three triples
    applies. At the first tile of a batch entry the accumulators come in at anything (at the grid's first point the
    class invariant's; at a later one what the previous batch entry left, which is forgotten) and leave at the update of
    zero; at every other tile they come in at what the previous point left and leave at its update; the output's buffer
    is handed back untouched except at the last tile, where it leaves at `outOf` of the updated accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_succ, PhiS0_succ, Phi0_castSucc]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [accAt0_eq V c t]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [show accPrev0 V c t = accZero from by unfold accPrev0; rw [if_pos h0]]
    by_cases hz : t.val = 0
    · rw [PhiS0_zero V c _ _ hz, PhiA0_eq]
      iintro ⟨⟨⟨HS0, HS1, HS2, Hr⟩, Hg⟩, Ho, ⟨%d0, H0⟩, ⟨%d1, H1⟩, ⟨%d2, H2⟩⟩
      iapply (kernel_first c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2
    · rw [PhiS0_pos V c _ _ hz]
      iintro ⟨⟨⟨HS0, HS1, HS2, Hr⟩, Hg⟩, Ho, ⟨%d0, H0⟩, ⟨%d1, H1⟩, ⟨%d2, H2⟩⟩
      iapply (kernel_first c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [show accPrev0 V c t = accAt0 V c (t.val - 1) (Nat.lt_of_le_of_lt (Nat.sub_le _ _) t.isLt) from by
      unfold accPrev0; rw [if_neg h0, dif_neg hz]]
    rw [PhiS0_pos V c _ _ hz]
    by_cases h1 : t.val % 16 = 15
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, accAt0_eq V c t]
      rw [show accPrev0 V c t = accAt0 V c (t.val - 1) (Nat.lt_of_le_of_lt (Nat.sub_le _ _) t.isLt) from by
        unfold accPrev0; rw [if_neg h0, dif_neg hz]]
      iintro ⟨⟨⟨HS0, HS1, HS2, Hr⟩, Hg⟩, Ho, ⟨%d0, H0⟩, ⟨%d1, H1⟩, ⟨%d2, H2⟩⟩
      iapply (kernel_last c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) (accAt0 V c (t.val - 1) (Nat.lt_of_le_of_lt (Nat.sub_le _ _) t.isLt)) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, HS1, HS2, Hr⟩, Hg⟩, Ho, ⟨%d0, H0⟩, ⟨%d1, H1⟩, ⟨%d2, H2⟩⟩
      iapply (kernel_mid c (grid0.coords t) (ms0_0 t) (hs0_0 t) (ms0_1 t) (hs0_1 t) (ms0_2 t) (hs0_2 t) scM0 (Memref.isWhole_whole _) scM1 (Memref.isWhole_whole _) scM2 (Memref.isWhole_whole _) hc0 hc1 (iblk0 V c 0 t) (iblk0 V c 1 t) ((dat0 V c).before 2 t d2) (accAt0 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      iexists _; iexact H2

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KR1.lean ====
/-
  Region 1 (the combine kernel), its proof data at any float instance and any entry contents.

  The grid is (batch b, tile d) with 16 tiles of 2048 along the long axis of length 32768; point t is
  (t / 16, t % 16). At a point the body reads the weight block  w[b, :, 0]  (512 x 1: one block per batch entry,
  the same for its 16 tiles, so it is brought in at tile 0 only and found in place afterwards) and the value block
  v[b, :, 2048 d .. 2048 d + 2047]  (512 x 2048), and stores over the whole output block
    out[b, m, 2048 d + j] = w[b, m] * v[b, m, 2048 d + j].
  Nothing is carried from one point to the next: the region invariant is the class's own, and what the body leaves
  in the output's buffer is the product payload of the two input blocks at that point.
-/
import proofs.«145453_j21732534517872_1_alg».proof.Proof.Gen.Kernel.Launch
import proofs.«145453_j21732534517872_1_alg».proof.Proof.Gen.Kernel.Skeleton
import proofs.«145453_j21732534517872_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight window's staging buffer holds its block at every point: brought in at tile 0 of a batch entry, and at
    the other tiles still there, the block index (b, 0, 0) not having moved and the body leaving the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point (it is brought in at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of every access of the body: zero on each axis. -/
theorem off1_zero : (![0, 0, 0] : Fin 3 → Nat) = fun _ => 0 := funext fun a => by fin_cases a <;> rfl

/-- The whole output block, as a rectangle of its buffer. -/
abbrev r1_out : Rect S1x512x2048 := Rect.unit (s := S1x512x2048) ![0, 0, 0] S1x512x2048.size inb_S1x512x2048_S1x512x2048_0_0_0

/-- The one store covers the output block. -/
theorem cover1_2 (p : Vec F S1x512x2048 .f32) (y : S1x512x2048.Idx) :
    ∃ pc ∈ ([⟨r1_out, p⟩] : List (View.Piece (Elt F) S1x512x2048 .f32)), y ∈ pc.1.set :=
  ⟨⟨r1_out, p⟩, List.mem_singleton_self _, View.mem_set_unit_zero (S := S1x512x2048) off1_zero inb_S1x512x2048_S1x512x2048_0_0_0 y⟩

/-! ## The body's triple -/

set_option maxHeartbeats 1000000 in
/-- The body on whole staging memrefs, the weight's at contents `x0`, the value's at `x1` and the output's at
    anything, runs to the continuation holding the two inputs as they were and the output's buffer at the product
    payload of `x0` and `x1`: both loads read their whole buffers and the one store covers the output's. -/
theorem sound_kernel1 (c : Dev nD) (E : Set ℕ) (i : grid1.Coords)
    (arg2 : Memref sig .tc .vmem S1x512x1 .f32) (harg2 : arg2.IsWhole)
    (arg3 : Memref sig .tc .vmem S1x512x2048 .f32) (harg3 : arg3.IsWhole)
    (arg4 : Memref sig .tc .vmem S1x512x2048 .f32) (harg4 : arg4.IsWhole)
    (x0 : Vec F S1x512x1 .f32) (x1 : Vec F S1x512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__combine_kernel i arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rw [View.canon_unit_zero off1_zero]
  simp only [View.readAt_eq_ld, View.ld_unit_zero (S := S1x512x1) off1_zero, View.ld_unit_zero (S := S1x512x2048) off1_zero]

/-! ## The proof data -/

/-- Region 1's proof data on core `c`: the arrays as the region finds them; after the body each input's buffer at its
    block and the output's at the product payload of the two input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The launch of the two-region program at any float instance.

  @main is: a host stretch (the three inputs re-laid as [2, 512, 32768] arrays), the similarity kernel (region 0, which
  writes the [2, 512, 1] array of weights), the combining kernel (region 1, which writes the weighted values), and a host
  stretch that lays the result back out. Between items the core holds every unscoped buffer at a valuation: the launch
  contents, each host stretch applied, each region's output array replaced by what its write-backs leave. The run ends
  with every unscoped buffer at the last valuation; the frame (the arguments end as launched) and the result array's
  contents are read off it.
-/
import proofs.«145453_j21732534517872_1_alg».proof.Proof.KR0Body
import proofs.«145453_j21732534517872_1_alg».proof.Proof.KR1
import proofs.«145453_j21732534517872_1_alg».proof.Proof.Gen.Kernel.Regions
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0 is entered from the launch contents after the first host stretch. -/
abbrev E0 : (c : Dev nD) → (b : Ref sig .tc) → Buf (Elt F) ((c : Thread nD τ).loc b) := fun c b => Gen.V1 m c b

/-- At region 0's exit: its arrays at what the write-backs leave, every other buffer as entered. -/
def X2 (c : Dev nD) : Valuation τ sig (Elt F) :=
  Pipeline.withArrays spec0 c (Gen.V1 m c) fun w => (dat0 (E0 m) c).arrAt w cfg0.N

theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w

/-- What the regions leave, as the unknowns of the host side: region 0's output array read off `X2`. -/
def outs2 : Gen.Outs (F := F) := fun _ r c => X2 m c r

/-- Region 1 is entered from there: the entry contents with region 0's output array replaced. -/
abbrev E1 : (c : Dev nD) → (b : Ref sig .tc) → Buf (Elt F) ((c : Thread nD τ).loc b) := fun c b => Gen.V2 m (outs2 m) c b

/-- At region 1's exit. -/
def X4 (c : Dev nD) : Valuation τ sig (Elt F) :=
  Pipeline.withArrays spec1 c (Gen.V2 m (outs2 m) c) fun w => (dat1 (E1 m) c).arrAt w cfg1.N

theorem X4_arr (c : Dev nD) (w : Fin cfg1.W) :
    X4 m c (Proc.devRef .tc (Pipeline.arrRef spec1 w)) = (dat1 (E1 m) c).arrAt w cfg1.N := by
  unfold X4; exact Pipeline.withArrays_arr spec1 launch1.win.arr_inj c _ _ w

/-- Both regions' outputs. -/
def outs : Gen.Outs (F := F) := fun J r c => if J = 2 then X2 m c r else X4 m c r

theorem V2_outs (c : Dev nD) : Gen.V2 m (outs m) c = Gen.V2 m (outs2 m) c := rfl

/-- After region 0 each of its arrays holds what the pipeline leaves, -/
theorem hF0 (c : Dev nD) (w : Fin cfg0.W) : (dat0 (E0 m) c).arrAt w cfg0.N = E1 m c (Pipeline.arrRef spec0 w) := by
  match w with
  | ⟨0, _⟩ =>
    refine ((dat0 (E0 m) c).arrAt_in 0 rfl _).trans ((A_eq0 (E0 m) c 0).trans ?_)
    exact (Gen.V2_of m (outs2 m) c main_v6 (by decide)).symm
  | ⟨1, _⟩ =>
    refine ((dat0 (E0 m) c).arrAt_in 1 rfl _).trans ((A_eq0 (E0 m) c 1).trans ?_)
    exact (Gen.V2_of m (outs2 m) c main_v7 (by decide)).symm
  | ⟨2, _⟩ =>
    show _ = Function.update (Gen.V1 m c) (Proc.devRef .tc main_v9) (outs2 m 2 main_v9 c) (Proc.devRef .tc main_v9)
    rw [Function.update_self]
    exact (X2_arr m c 2).symm

/-- and every other buffer what it held at entry. -/
theorem hrest0 (c : Dev nD) : ∀ b, b ∉ Finset.univ.image (Pipeline.arrRef spec0) → E1 m c b = E0 m c b := fun b hb =>
  Gen.V2_of m (outs2 m) c b (by
    intro h
    rw [List.mem_singleton] at h
    exact hb (Finset.mem_image.mpr ⟨2, Finset.mem_univ _, h.symm⟩))

theorem hF1 (c : Dev nD) (w : Fin cfg1.W) : (dat1 (E1 m) c).arrAt w cfg1.N = Gen.V3 m (outs m) c (Pipeline.arrRef spec1 w) := by
  match w with
  | ⟨0, _⟩ =>
    refine ((dat1 (E1 m) c).arrAt_in 0 rfl _).trans ((A_eq1 (E1 m) c 0).trans ?_)
    exact (Gen.V3_of m (outs m) c main_v9 (by decide)).symm
  | ⟨1, _⟩ =>
    refine ((dat1 (E1 m) c).arrAt_in 1 rfl _).trans ((A_eq1 (E1 m) c 1).trans ?_)
    exact (Gen.V3_of m (outs m) c main_v8 (by decide)).symm
  | ⟨2, _⟩ =>
    show _ = Function.update (Gen.V2 m (outs m) c) (Proc.devRef .tc main_v10) (outs m 3 main_v10 c) (Proc.devRef .tc main_v10)
    rw [Function.update_self]
    exact (X4_arr m c 2).symm

theorem hrest1 (c : Dev nD) : ∀ b, b ∉ Finset.univ.image (Pipeline.arrRef spec1) → Gen.V3 m (outs m) c b = E1 m c b := fun b hb =>
  Gen.V3_of m (outs m) c b (by
    intro h
    rw [List.mem_singleton] at h
    exact hb (Finset.mem_image.mpr ⟨2, Finset.mem_univ _, h.symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev Es : Fin 3 → Dev nD → sProp 𝕄 := fun _ c => R c

set_option backward.isDefEq.respectTransparency.types false in
/-- Region 0 over the thread state: entered from every unscoped buffer at the contents after the first host stretch,
    left with its output array at what the last tiles' write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (E0 m) c)
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from where region 0 left, left with its output array written block by block. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer ends at the last valuation of the fold through @main: the launch contents, each host stretch applied,
    each region's output array replaced by what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv Es () (pdats m) (reg0 m) (reg1 m))
    (fun c Q => by
      rewrite [main_chain c, Pipeline.Seg.run_eq_chain,
        show (Gen.segs m (outs m) 𝒱₀ L lv Es () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outs m) c) ∗ ∃ r, prngReg c r))
    (hch := fun c => ⟨.rfl, .rfl, .rfl, .rfl,
      (show iprop(StableHlo.held (c : Thread nD τ) (Pipeline.ucRefs τ sig) (Gen.V4 m (outs m) c) ∗ R c)
          ⊢ (iprop((StableHlo.held (c : Thread nD τ) (Pipeline.ucRefs τ sig) (Gen.V4 m (outs m) c) ∗ ∃ r, prngReg c r)
            ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c)⟩) (run_all m ρ)

/-- The result array ends at the last valuation's entry for it. -/
theorem run_result : θ_run defs (onTc (τ := τ) (main (F := F))) ⟨m, fun _ => 0, ρ⟩ (fun r => ∀ c : Dev nD,
      r.2.mem ((c.tc : Thread nD τ).loc main_v13) = Gen.V4 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v13 (by decide)),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c)⟩) (run_all m ρ)

end Cert.Kernel.Hand

end
-- ==== Proof.lean ====
/-
  The certificate's claim, assembled.

  The two kernel programs run to the end with their arguments unchanged (each region's body obligation at every grid
  point, the two regions chained through the host stretches); the reference's run is its operations composed; nothing was
  rewritten by the idealization; and at the exact instance both programs end with  attn[b, m] * V[b, m, d]  on the
  flattened layout, laid back out (Proof/Algebraic.lean).
-/
import proofs.«145453_j21732534517872_1_alg».proof.Defs
import proofs.«145453_j21732534517872_1_alg».proof.Proof.Algebraic
import proofs.«145453_j21732534517872_1_alg».proof.Proof.KRun
import proofs.«145453_j21732534517872_1_alg».proof.Proof.Gen.Kernel
import proofs.«145453_j21732534517872_1_alg».proof.Proof.Gen.KernelIdeal
import proofs.«145453_j21732534517872_1_alg».proof.Proof.Gen.ReferenceIdeal
import proofs.«145453_j21732534517872_1_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_p, Claims.frame_pi, Claims.frame_ri, trivial, Claims.algebraic⟩

end Cert.Proof

end
